-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S32000x2048 : S_.BroadcastsInDim S32000x2048 (![] : Fin 0 → Fin S32000x2048.rank)
  reducesTo_S32000x2048_S_d0_1 : S32000x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg12
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg8 : FVec F S4096 .f32) (main_arg9 : FVec F S4096x1024 .f32) (main_arg10 : FVec F S4096x1024 .f32) (main_arg11 : FVec F S4096 .f32) (main_arg12 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096x1024 .f32 := Host.absf main_arg10
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg12 main_v48 main_v49 main_v50

def fn_part1 {F : FTy → Type} [FloatOps F] (main_arg5 : FVec F S4096x2048 .f32) (main_arg6 : FVec F S4096x1024 .f32) (main_arg7 : FVec F S4096 .f32) (main_arg8 : FVec F S4096 .f32) (main_arg9 : FVec F S4096x1024 .f32) (main_arg10 : FVec F S4096x1024 .f32) (main_arg11 : FVec F S4096 .f32) (main_arg12 : FVec F S4096 .f32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x1024 .f32 := Host.absf main_arg6
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S4096 32) (main_arg1 : FVec F S4096x1024 .f32) (main_arg2 : FVec F S512x1024 .f32) (main_arg3 : FVec F S512 .f32) (main_arg4 : FVec F S32000x2048 .f32) (main_arg5 : FVec F S4096x2048 .f32) (main_arg6 : FVec F S4096x1024 .f32) (main_arg7 : FVec F S4096 .f32) (main_arg8 : FVec F S4096 .f32) (main_arg9 : FVec F S4096x1024 .f32) (main_arg10 : FVec F S4096x1024 .f32) (main_arg11 : FVec F S4096 .f32) (main_arg12 : FVec F S4096 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S512x1024 .f32 := Host.absf main_arg2
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg5 main_arg6 main_arg7 main_arg8 main_arg9 main_arg10 main_arg11 main_arg12 main_v13 main_v16
-- ==== Kernel.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S1x512 : Shape := ⟨2, ![1, 512]⟩
abbrev S1x4096 : Shape := ⟨2, ![1, 4096]⟩
abbrev S256x1024 : Shape := ⟨2, ![256, 1024]⟩
abbrev S1024x512 : Shape := ⟨2, ![1024, 512]⟩
abbrev S256x512 : Shape := ⟨2, ![256, 512]⟩
abbrev S_ : Shape := ⟨0, ![]⟩
abbrev S4096x1 : Shape := ⟨2, ![4096, 1]⟩
abbrev S256x2048 : Shape := ⟨2, ![256, 2048]⟩
abbrev S2048x4096 : Shape := ⟨2, ![2048, 4096]⟩
abbrev S256x4096 : Shape := ⟨2, ![256, 4096]⟩
abbrev S1024x4096 : Shape := ⟨2, ![1024, 4096]⟩
abbrev S1x4096x1024 : Shape := ⟨3, ![1, 4096, 1024]⟩
abbrev S2x4096x1024 : Shape := ⟨3, ![2, 4096, 1024]⟩

abbrev nBuf : Space → Nat
  | .hbm => 41
  | .vmem => 26
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S512x1024, .f32⟩
  | .hbm, ⟨3, _⟩ => ⟨S512, .f32⟩
  | .hbm, ⟨4, _⟩ => ⟨S32000x2048, .f32⟩
  | .hbm, ⟨5, _⟩ => ⟨S4096x2048, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S512x1024, .bf16⟩
  | .hbm, ⟨14, _⟩ => ⟨S4096x2048, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S1x512, .f32⟩
  | .hbm, ⟨19, _⟩ => ⟨S1x4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S4096x1024, .bf16⟩
  | .hbm, ⟨24, _⟩ => ⟨S4096x1024, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x2048, .f32⟩
  | .hbm, ⟨34, _⟩ => ⟨S4096x2048, .bf16⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S1x4096x1024, .f32⟩
  | .hbm, ⟨39, _⟩ => ⟨S1x4096x1024, .f32⟩
  | .hbm, ⟨40, _⟩ => ⟨S2x4096x1024, .f32⟩
  | .local _ .vmem, ⟨0, _⟩ => ⟨S256x1024, .bf16⟩
  | .local _ .vmem, ⟨1, _⟩ => ⟨S256x1024, .bf16⟩
  | .local _ .vmem, ⟨2, _⟩ => ⟨S512x1024, .bf16⟩
  | .local _ .vmem, ⟨3, _⟩ => ⟨S1x512, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S4096x2048, .bf16⟩
  | .local _ .vmem, ⟨11, _⟩ => ⟨S4096x1024, .bf16⟩
  | .local _ .vmem, ⟨12, _⟩ => ⟨S1x4096, .f32⟩
  | .local _ .vmem, ⟨13, _⟩ => ⟨S1x4096, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S4096x1024, .bf16⟩
  | .local _ .vmem, ⟨21, _⟩ => ⟨S4096x1024, .bf16⟩
  | .local _ .vmem, ⟨22, _⟩ => ⟨S1x4096, .f32⟩
  | .local _ .vmem, ⟨23, _⟩ => ⟨S1x4096, .f32⟩
  | .local _ .vmem, ⟨24, _⟩ => ⟨S256x1024, .f32⟩
  | .local _ .vmem, ⟨25, _⟩ => ⟨S256x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bitsLt_bf16_f32 : FTy.bits .bf16 < FTy.bits .f32
  shapeCasts_S512_S1x512 : S512.ShapeCasts S1x512
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  concatenates_S256x512_S256x512_S256x1024_d1 : Shape.Concatenates [S256x512, S256x512] S256x1024 1
  bcast_S_S4096 : S_.BroadcastsInDim S4096 (![] : Fin 0 → Fin S4096.rank)
  bcast_S4096_S4096x1_0 : S4096.BroadcastsInDim S4096x1 (![0] : Fin 1 → Fin S4096x1.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x2048_p1_0_S2048x4096 : S4096x2048.Transposes [1, 0] S2048x4096
  transposes_S4096x1024_p1_0_S1024x4096 : S4096x1024.Transposes [1, 0] S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S256x1024_S1024x512_S256x512_1_0_0_1_n_n_wf : DotDims.WF S256x1024 S1024x512 S256x512 [1] [0] [0] [1] [] []
  gather_S32000x2048_S4096x1_S4096x2048_1_0_n_n_0_1_12048_wf : GatherDims.WF S32000x2048 S4096x1 S4096x2048 [1] [0] [] [0] [] 1 ![1, 2048]
  dot_S256x2048_S2048x4096_S256x4096_1_0_0_1_n_n_wf : DotDims.WF S256x2048 S2048x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S4096x1024.size a
  hwx1_1 : ∀ i : grid1.Coords, EltTy.bits .f32 = 32 ∨ (Rect.block (s := S4096x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2048.size a ≤ S4096x2048.size a
  hwx1_2 : ∀ i : grid1.Coords, EltTy.bits .bf16 = 32 ∨ (Rect.block (s := S4096x2048) S4096x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4096.size a ≤ S1x4096.size a
  hwx1_5 : ∀ i : grid1.Coords, EltTy.bits .f32 = 32 ∨ (Rect.block (s := S1x4096) S1x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S4096x1024.size a
  hwx2_1 : ∀ i : grid2.Coords, EltTy.bits .f32 = 32 ∨ (Rect.block (s := S4096x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x1024.size a ≤ S4096x1024.size a
  hwx2_2 : ∀ i : grid2.Coords, EltTy.bits .bf16 = 32 ∨ (Rect.block (s := S4096x1024) S4096x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x4096.size a
  hwx2_4 : ∀ i : grid2.Coords, EltTy.bits .f32 = 32 ∨ (Rect.block (s := S1x4096) S1x4096.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S4096x1024.size a
  hwx2_6 : ∀ i : grid2.Coords, EltTy.bits .f32 = 32 ∨ (Rect.block (s := S4096x1024) S256x1024.size (cc2_transform_6 i) (hinb2_6 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v10) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S4096x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S256x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096 : Shape := ⟨1, ![4096]⟩
abbrev S4096x1024 : Shape := ⟨2, ![4096, 1024]⟩
abbrev S512x1024 : Shape := ⟨2, ![512, 1024]⟩
abbrev S512 : Shape := ⟨1, ![512]⟩
abbrev S32000x2048 : Shape := ⟨2, ![32000, 2048]⟩
abbrev S4096x2048 : Shape := ⟨2, ![4096, 2048]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S4096x1 : Shape := ⟨2, ![4096, 1]⟩
abbrev S2048x4096 : Shape := ⟨2, ![2048, 4096]⟩
abbrev S4096x4096 : Shape := ⟨2, ![4096, 4096]⟩
abbrev S1024x4096 : Shape := ⟨2, ![1024, 4096]⟩
abbrev S1x4096 : Shape := ⟨2, ![1, 4096]⟩
abbrev S1x4096x1024 : Shape := ⟨3, ![1, 4096, 1024]⟩
abbrev S2x4096x1024 : Shape := ⟨3, ![2, 4096, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S512x1024, .f32⟩
  | .hbm, ⟨3, _⟩ => ⟨S512, .f32⟩
  | .hbm, ⟨4, _⟩ => ⟨S32000x2048, .f32⟩
  | .hbm, ⟨5, _⟩ => ⟨S4096x2048, .f32⟩
  | .hbm, ⟨6, _⟩ => ⟨S4096x1024, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S4096x1024, .f32⟩
  | .hbm, ⟨11, _⟩ => ⟨S4096, .f32⟩
  | .hbm, ⟨12, _⟩ => ⟨S4096, .f32⟩
  | .hbm, ⟨13, _⟩ => ⟨S1024x512, .f32⟩
  | .hbm, ⟨14, _⟩ => ⟨S4096x512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S4096x1024, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096x2048, .f32⟩
  | .hbm, ⟨28, _⟩ => ⟨S2048x4096, .f32⟩
  | .hbm, ⟨29, _⟩ => ⟨S4096x4096, .f32⟩
  | .hbm, ⟨30, _⟩ => ⟨S1024x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1024x4096, .f32⟩
  | .hbm, ⟨74, _⟩ => ⟨S4096x4096, .f32⟩
  | .hbm, ⟨75, _⟩ => ⟨S1024x4096, .f32⟩
  | .hbm, ⟨76, _⟩ => ⟨S4096x4096, .f32⟩
  | .hbm, ⟨77, _⟩ => ⟨S4096x4096, .f32⟩
  | .hbm, ⟨78, _⟩ => ⟨S1x4096, .f32⟩
  | .hbm, ⟨79, _⟩ => ⟨S4096x4096, .f32⟩
  | .hbm, ⟨80, _⟩ => ⟨S4096x4096, .f32⟩
  | .hbm, ⟨81, _⟩ => ⟨S1x4096, .f32⟩
  | .hbm, ⟨82, _⟩ => ⟨S4096x4096, .f32⟩
  | .hbm, ⟨83, _⟩ => ⟨S4096x4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S1x4096x1024, .f32⟩
  | .hbm, ⟨119, _⟩ => ⟨S1x4096x1024, .f32⟩
  | .hbm, ⟨120, _⟩ => ⟨S2x4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_6 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_8 : Ref sig .tc := ⟨.hbm, 98, rfl⟩
abbrev main_v75 : Ref sig .tc := ⟨.hbm, 99, rfl⟩
abbrev main_v76 : Ref sig .tc := ⟨.hbm, 100, rfl⟩
abbrev main_cst_9 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_10 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  concatenates_S4096x512_S4096x512_S4096x1024_d1 : Shape.Concatenates [S4096x512, S4096x512] S4096x1024 1
  bcast_S_S4096 : S_.BroadcastsInDim S4096 (![] : Fin 0 → Fin S4096.rank)
  bcast_S4096_S4096x1_0 : S4096.BroadcastsInDim S4096x1 (![0] : Fin 1 → Fin S4096x1.rank)
  transposes_S4096x2048_S2048x4096_1_0 : S4096x2048.Transposes [1, 0] S2048x4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S4096x1024_S1024x512_S4096x512_1_0_0_1_n_n_wf : DotDims.WF S4096x1024 S1024x512 S4096x512 [1] [0] [0] [1] [] []
  gather_S32000x2048_S4096x1_S4096x2048_1_0_n_n_0_1_12048_wf : GatherDims.WF S32000x2048 S4096x1 S4096x2048 [1] [0] [] [0] [] 1 ![1, 2048]
  dot_S4096x2048_S2048x4096_S4096x4096_1_0_0_1_n_n_wf : DotDims.WF S4096x2048 S2048x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def gather_S32000x2048_S4096x1_S4096x2048_1_0_n_n_0_1_12048 : GatherDims S32000x2048 S4096x1 S4096x2048 where
  offsetDims := [1]
  collapsedSliceDims := [0]
  operandBatchingDims := []
  startIndicesBatchingDims := []
  startIndexMap := [0]
  indexVectorDim := 1
  sliceSizes := ![1, 2048]
  wf := gather_S32000x2048_S4096x1_S4096x2048_1_0_n_n_0_1_12048_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The mathematics of the decoder step, entry by entry, on the extended reals.

  A bridge layer maps a row of the encoder state to 512 numbers (a dot product with each row of the bridge matrix,
  plus a bias) and lays them out twice side by side, giving the 1024 numbers that serve as BOTH the hidden and the
  cell state of the two cells. A cell's four gate pre-activations at row r are dot products of the input row with
  the rows of the input weights, plus dot products of the state row with the rows of the state weights, plus two
  biases; its new hidden value is o · tanh (f · c + i · tanh g) with i, f, o the logistic function of their
  pre-activations (gate order i, f, g, o along the 4096 columns).
-/
import Idealize.ShloMosaic.Lib.ValueIdx
import Idealize.ShloMosaic.PureOps.Ideal

noncomputable section

namespace Cert.Lstm

open Idealize.ShloMosaic Idealize.ShloMosaic.ValueIdx

variable {A K : Nat}

/-- Row r of x against row n of w: the sum over k of x[r, k] · w[n, k]. -/
def rowDot {N : Nat} (x : (⟨2, ![A, K]⟩ : Shape).Idx → EReal) (w : (⟨2, ![N, K]⟩ : Shape).Idx → EReal)
    (r : Fin A) (n : Fin N) : EReal :=
  ∑ k : Fin K, x (ix2 r k) * w (ix2 n k)

/-- The bridge output at (r, j): column j mod 512 of the affine map, the 512 columns laid out twice. -/
def bridge (enc : (⟨2, ![A, 1024]⟩ : Shape).Idx → EReal) (w : (⟨2, ![512, 1024]⟩ : Shape).Idx → EReal)
    (b : Fin 512 → EReal) (r : Fin A) (j : Fin 1024) : EReal :=
  rowDot enc w r ⟨j.val % 512, Nat.mod_lt _ (by decide)⟩ + b ⟨j.val % 512, Nat.mod_lt _ (by decide)⟩

/-- Gate pre-activation n of row r. -/
def gate (x : (⟨2, ![A, K]⟩ : Shape).Idx → EReal) (hc : (⟨2, ![A, 1024]⟩ : Shape).Idx → EReal)
    (wih : (⟨2, ![4096, K]⟩ : Shape).Idx → EReal) (whh : (⟨2, ![4096, 1024]⟩ : Shape).Idx → EReal)
    (bih bhh : Fin 4096 → EReal) (r : Fin A) (n : Fin 4096) : EReal :=
  rowDot x wih r n + rowDot hc whh r n + bih n + bhh n

/-- The cell's new hidden value at (r, j); hc is both the old hidden and the old cell state. -/
def cell (x : (⟨2, ![A, K]⟩ : Shape).Idx → EReal) (hc : (⟨2, ![A, 1024]⟩ : Shape).Idx → EReal)
    (wih : (⟨2, ![4096, K]⟩ : Shape).Idx → EReal) (whh : (⟨2, ![4096, 1024]⟩ : Shape).Idx → EReal)
    (bih bhh : Fin 4096 → EReal) (r : Fin A) (j : Fin 1024) : EReal :=
  Ideal.logistic (gate x hc wih whh bih bhh r ⟨3072 + j.val, by have := j.isLt; omega⟩) *
    Ideal.tanh (Ideal.logistic (gate x hc wih whh bih bhh r ⟨1024 + j.val, by have := j.isLt; omega⟩) * hc (ix2 r j)
      + Ideal.logistic (gate x hc wih whh bih bhh r ⟨j.val, by have := j.isLt; omega⟩)
        * Ideal.tanh (gate x hc wih whh bih bhh r ⟨2048 + j.val, by have := j.isLt; omega⟩))

end Cert.Lstm

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibBridge.lean ====
/-
  The bridge layer in the kernel's and in the host program's spelling, read at an entry (a general lemma: any
  number of rows A; 1024 inputs, 512 outputs laid out twice).

  Both spellings contract the rows of the encoder state with the rows of the bridge matrix (through a transpose),
  add the bias along the rows, and join the result with itself along the columns; entry (r, j) of the joined matrix
  is entry (r, j mod 512) of the affine map.
-/
import proofs.«118758_j18124761989796_1_alg».proof.Proof.Spec
import proofs.«118758_j18124761989796_1_alg».proof.Proof.LibMatmul
import proofs.«118758_j18124761989796_1_alg».proof.Proof.LibLayout
import Idealize.ShloMosaic.Lib.Pipeline.Value
import Idealize.ShloMosaic.PureOps.Ideal.Laws

noncomputable section

namespace Cert.Lstm

open Idealize.ShloMosaic Idealize.ShloMosaic.ValueIdx

variable {A : Nat}

/-- The transposed bridge matrix at (k, c) is the matrix at (c, k). -/
private theorem transW_apply {α : Type} (w : (⟨2, ![512, 1024]⟩ : Shape).Idx → α)
    (ht : (⟨2, ![512, 1024]⟩ : Shape).Transposes [1, 0] ⟨2, ![1024, 512]⟩) (k : Fin 1024) (c : Fin 512) :
    transpose ⟨2, ![1024, 512]⟩ [1, 0] w ht (ix2 k c) = w (ix2 c k) := by
  refine transpose_apply [1, 0] w ht (ix2 k c) (ix2 c k) ?_
  intro b
  match b with
  | ⟨0, _⟩ => rfl
  | ⟨1, _⟩ => rfl

/-- A matrix of 512 columns joined with itself along the columns: entry (r, j) is the matrix's entry (r, j mod 512). -/
private theorem twice_apply {α : Type} (x : (⟨2, ![A, 512]⟩ : Shape).Idx → α)
    (hcat : Shape.Concatenates [(⟨2, ![A, 512]⟩ : Shape), ⟨2, ![A, 512]⟩] ⟨2, ![A, 1024]⟩ 1)
    (r : Fin A) (j : Fin 1024) :
    concatenate ⟨2, ![A, 1024]⟩ 1 [⟨⟨2, ![A, 512]⟩, x⟩, ⟨⟨2, ![A, 512]⟩, x⟩] hcat (ix2 r j)
      = x (ix2 r ⟨j.val % 512, Nat.mod_lt _ (by decide)⟩) := by
  by_cases hj : j.val < 512
  · refine concatenate_pair_apply_left (1 : Fin 2) x x hcat (ix2 r j) rfl _ ?_
    intro b
    match b with
    | ⟨0, _⟩ => rfl
    | ⟨1, _⟩ =>
      show j.val % 512 = j.val
      exact Nat.mod_eq_of_lt hj
  · refine concatenate_pair_apply_right (1 : Fin 2) x x hcat (ix2 r j) rfl rfl _ ?_ ?_
    · intro b hb
      match b, hb with
      | ⟨0, _⟩, _ => rfl
      | ⟨1, _⟩, hb => exact absurd rfl hb
    · show j.val % 512 + 512 = j.val
      have := j.isLt
      omega

/-- The kernel's affine map at (r, c): row r of the encoder state against row c of the bridge matrix, plus the bias. -/
private theorem affKern_apply
    (he : (⟨2, ![A, 1024]⟩ : Shape).ShapeCasts ⟨2, ![A, 1024]⟩)
    (hw : (⟨2, ![512, 1024]⟩ : Shape).ShapeCasts ⟨2, ![512, 1024]⟩)
    (hb : (⟨2, ![1, 512]⟩ : Shape).ShapeCasts ⟨2, ![1, 512]⟩)
    (ht : (⟨2, ![512, 1024]⟩ : Shape).Transposes [1, 0] ⟨2, ![1024, 512]⟩)
    (hbc : (⟨2, ![1, 512]⟩ : Shape).Broadcasts ⟨2, ![A, 512]⟩)
    (v0 : FVec Ideal ⟨2, ![A, 1024]⟩ .bf16) (v2 : FVec Ideal ⟨2, ![512, 1024]⟩ .bf16)
    (v6 : FVec Ideal ⟨2, ![1, 512]⟩ .f32) (r : Fin A) (c : Fin 512) :
    addf (matmul (DotDims.plain A 1024 512) none (shapeCast ⟨2, ![A, 1024]⟩ v0 he)
          (transpose ⟨2, ![1024, 512]⟩ [1, 0] (shapeCast ⟨2, ![512, 1024]⟩ v2 hw) ht)
          (constant ⟨2, ![A, 512]⟩ .f32 0x00000000#32))
        (broadcastTo ⟨2, ![A, 512]⟩ (shapeCast ⟨2, ![1, 512]⟩ v6 hb) hbc) (ix2 r c)
      = rowDot v0 v2 r c + v6 (ix2 (0 : Fin 1) c) := by
  rw [shapeCast_self, shapeCast_self, shapeCast_self]
  refine (addf_apply _ _ _).trans ?_
  have h1 : matmul (DotDims.plain A 1024 512) none v0 (transpose ⟨2, ![1024, 512]⟩ [1, 0] v2 ht)
      (constant ⟨2, ![A, 512]⟩ .f32 0x00000000#32) (ix2 r c) = rowDot v0 v2 r c := by
    refine (Cert.Lib.Matmul.matmul_zero_apply none v0 _ r c).trans ?_
    unfold rowDot
    refine Finset.sum_congr rfl fun k _ => ?_
    rw [transW_apply]
  have h2 : broadcastTo ⟨2, ![A, 512]⟩ v6 hbc (ix2 r c) = v6 (ix2 (0 : Fin 1) c) := by
    refine broadcastTo_apply v6 hbc (ix2 r c) (ix2 (0 : Fin 1) c) ?_
    intro a
    match a with
    | ⟨0, _⟩ => simp
    | ⟨1, _⟩ =>
      exact (if_neg (show ¬((512 : Nat) = 1) by decide)).symm
  rw [h1, h2]

/-- The host program's affine map at (r, c): the same dot product, plus the bias vector's entry c. -/
private theorem affHost_apply
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![A, 512]⟩ ![0, 1])
    (enc : FVec Ideal ⟨2, ![A, 1024]⟩ .f32) (w : FVec Ideal ⟨2, ![512, 1024]⟩ .f32)
    (b : FVec Ideal ⟨1, ![512]⟩ .f32) (r : Fin A) (c : Fin 512) :
    addf (Host.dotGeneral (DotDims.plain A 1024 512) none enc (transpose ⟨2, ![1024, 512]⟩ [1, 0] w ht))
        (broadcastInDim ⟨2, ![A, 512]⟩ ![0, 1] hb2 (broadcastInDim ⟨2, ![1, 512]⟩ ![1] hb1 b)) (ix2 r c)
      = rowDot enc w r c + b (ix1 c) := by
  refine (addf_apply _ _ _).trans ?_
  have h1 : Host.dotGeneral (DotDims.plain A 1024 512) none enc (transpose ⟨2, ![1024, 512]⟩ [1, 0] w ht) (ix2 r c)
      = rowDot enc w r c := by
    refine (Cert.Lib.Matmul.dotGeneral_apply none .single enc _ r c).trans ?_
    unfold rowDot
    refine Finset.sum_congr rfl fun k _ => ?_
    rw [transW_apply]
  have h2 : broadcastInDim ⟨2, ![A, 512]⟩ ![0, 1] hb2 (broadcastInDim ⟨2, ![1, 512]⟩ ![1] hb1 b) (ix2 r c)
      = b (ix1 c) := by
    refine (broadcastInDim_apply ![0, 1] hb2 _ (ix2 r c) (ix2 (0 : Fin 1) c) ?_).trans ?_
    · intro a
      match a with
      | ⟨0, _⟩ => simp
      | ⟨1, _⟩ =>
        exact (if_neg (show ¬((512 : Nat) = 1) by decide)).symm
    · refine broadcastInDim_apply ![1] hb1 b (ix2 (0 : Fin 1) c) (ix1 c) ?_
      intro a
      match a with
      | ⟨0, _⟩ =>
        exact (if_neg (show ¬((512 : Nat) = 1) by decide)).symm
  rw [h1, h2]

/-- The bridge as the kernel body spells it, over a block of A rows. -/
def bridgeKern
    (he : (⟨2, ![A, 1024]⟩ : Shape).ShapeCasts ⟨2, ![A, 1024]⟩)
    (hw : (⟨2, ![512, 1024]⟩ : Shape).ShapeCasts ⟨2, ![512, 1024]⟩)
    (hb : (⟨2, ![1, 512]⟩ : Shape).ShapeCasts ⟨2, ![1, 512]⟩)
    (ht : (⟨2, ![512, 1024]⟩ : Shape).Transposes [1, 0] ⟨2, ![1024, 512]⟩)
    (hbc : (⟨2, ![1, 512]⟩ : Shape).Broadcasts ⟨2, ![A, 512]⟩)
    (hcat : Shape.Concatenates [(⟨2, ![A, 512]⟩ : Shape), ⟨2, ![A, 512]⟩] ⟨2, ![A, 1024]⟩ 1)
    (v0 : FVec Ideal ⟨2, ![A, 1024]⟩ .bf16) (v2 : FVec Ideal ⟨2, ![512, 1024]⟩ .bf16)
    (v6 : FVec Ideal ⟨2, ![1, 512]⟩ .f32) : FVec Ideal ⟨2, ![A, 1024]⟩ .f32 :=
  have v1 : FVec Ideal ⟨2, ![A, 1024]⟩ .bf16 := shapeCast ⟨2, ![A, 1024]⟩ v0 he
  have v3 : FVec Ideal ⟨2, ![512, 1024]⟩ .bf16 := shapeCast ⟨2, ![512, 1024]⟩ v2 hw
  have v4 : FVec Ideal ⟨2, ![1024, 512]⟩ .bf16 := transpose ⟨2, ![1024, 512]⟩ [1, 0] v3 ht
  have cst : FVec Ideal ⟨2, ![A, 512]⟩ .f32 := constant ⟨2, ![A, 512]⟩ .f32 0x00000000#32
  have v5 : FVec Ideal ⟨2, ![A, 512]⟩ .f32 := matmul (DotDims.plain A 1024 512) none v1 v4 cst
  have v7 : FVec Ideal ⟨2, ![1, 512]⟩ .f32 := shapeCast ⟨2, ![1, 512]⟩ v6 hb
  have v8 : FVec Ideal ⟨2, ![A, 512]⟩ .f32 := broadcastTo ⟨2, ![A, 512]⟩ v7 hbc
  have v9 : FVec Ideal ⟨2, ![A, 512]⟩ .f32 := addf v5 v8
  have v10 : FVec Ideal ⟨2, ![A, 1024]⟩ .f32 :=
    concatenate ⟨2, ![A, 1024]⟩ 1 [⟨⟨2, ![A, 512]⟩, v9⟩, ⟨⟨2, ![A, 512]⟩, v9⟩] hcat
  v10

/-- The kernel's bridge at (r, j) is the bridge of the specification, the bias row read at its one row. -/
theorem bridgeKern_apply
    (he : (⟨2, ![A, 1024]⟩ : Shape).ShapeCasts ⟨2, ![A, 1024]⟩)
    (hw : (⟨2, ![512, 1024]⟩ : Shape).ShapeCasts ⟨2, ![512, 1024]⟩)
    (hb : (⟨2, ![1, 512]⟩ : Shape).ShapeCasts ⟨2, ![1, 512]⟩)
    (ht : (⟨2, ![512, 1024]⟩ : Shape).Transposes [1, 0] ⟨2, ![1024, 512]⟩)
    (hbc : (⟨2, ![1, 512]⟩ : Shape).Broadcasts ⟨2, ![A, 512]⟩)
    (hcat : Shape.Concatenates [(⟨2, ![A, 512]⟩ : Shape), ⟨2, ![A, 512]⟩] ⟨2, ![A, 1024]⟩ 1)
    (v0 : FVec Ideal ⟨2, ![A, 1024]⟩ .bf16) (v2 : FVec Ideal ⟨2, ![512, 1024]⟩ .bf16)
    (v6 : FVec Ideal ⟨2, ![1, 512]⟩ .f32) (r : Fin A) (j : Fin 1024) :
    bridgeKern he hw hb ht hbc hcat v0 v2 v6 (ix2 r j)
      = bridge v0 v2 (fun n => v6 (ix2 (0 : Fin 1) n)) r j := by
  unfold bridgeKern
  refine (twice_apply _ hcat r j).trans ?_
  exact affKern_apply he hw hb ht hbc v0 v2 v6 r _

/-- The bridge as the host program spells it, over A rows. -/
def bridgeHost
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![A, 512]⟩ ![0, 1])
    (hcat : Shape.Concatenates [(⟨2, ![A, 512]⟩ : Shape), ⟨2, ![A, 512]⟩] ⟨2, ![A, 1024]⟩ 1)
    (enc : FVec Ideal ⟨2, ![A, 1024]⟩ .f32) (w : FVec Ideal ⟨2, ![512, 1024]⟩ .f32)
    (b : FVec Ideal ⟨1, ![512]⟩ .f32) : FVec Ideal ⟨2, ![A, 1024]⟩ .f32 :=
  have v4 : FVec Ideal ⟨2, ![A, 512]⟩ .f32 :=
    addf (Host.dotGeneral (DotDims.plain A 1024 512) none enc (transpose ⟨2, ![1024, 512]⟩ [1, 0] w ht))
      (broadcastInDim ⟨2, ![A, 512]⟩ ![0, 1] hb2 (broadcastInDim ⟨2, ![1, 512]⟩ ![1] hb1 b))
  concatenate ⟨2, ![A, 1024]⟩ 1 [⟨⟨2, ![A, 512]⟩, v4⟩, ⟨⟨2, ![A, 512]⟩, v4⟩] hcat

/-- The host program's bridge at (r, j) is the bridge of the specification. -/
theorem bridgeHost_apply
    (ht : (⟨2, ![512, 1024]⟩ : Shape).Transposes [1, 0] ⟨2, ![1024, 512]⟩)
    (hb1 : (⟨1, ![512]⟩ : Shape).BroadcastsInDim ⟨2, ![1, 512]⟩ ![1])
    (hb2 : (⟨2, ![1, 512]⟩ : Shape).BroadcastsInDim ⟨2, ![A, 512]⟩ ![0, 1])
    (hcat : Shape.Concatenates [(⟨2, ![A, 512]⟩ : Shape), ⟨2, ![A, 512]⟩] ⟨2, ![A, 1024]⟩ 1)
    (enc : FVec Ideal ⟨2, ![A, 1024]⟩ .f32) (w : FVec Ideal ⟨2, ![512, 1024]⟩ .f32)
    (b : FVec Ideal ⟨1, ![512]⟩ .f32) (r : Fin A) (j : Fin 1024) :
    bridgeHost ht hb1 hb2 hcat enc w b (ix2 r j) = bridge enc w (fun n => b (ix1 n)) r j := by
  unfold bridgeHost
  refine (twice_apply _ hcat r j).trans ?_
  exact affHost_apply ht hb1 hb2 enc w b r _

end Cert.Lstm

end
-- ==== Proof.SpecCongr.lean ====
/-
  The specification depends on its matrices only through the entries it reads: the bridge and the cell at row r read
  row r of the row-wise operands (and every entry of the weights and biases). So a block of rows computes what the
  whole matrix computes at the block's rows.
-/
import proofs.«118758_j18124761989796_1_alg».proof.Proof.Spec

noncomputable section

namespace Cert.Lstm

open Idealize.ShloMosaic Idealize.ShloMosaic.ValueIdx

/-- Two row-against-row dot products agree when the two rows and the two weight rows agree entry by entry. -/
theorem rowDot_congr {A A' K N : Nat}
    {x : (⟨2, ![A, K]⟩ : Shape).Idx → EReal} {x' : (⟨2, ![A', K]⟩ : Shape).Idx → EReal}
    {w w' : (⟨2, ![N, K]⟩ : Shape).Idx → EReal} {r : Fin A} {r' : Fin A'} (n : Fin N)
    (hx : ∀ k, x' (ix2 r' k) = x (ix2 r k)) (hw : ∀ k, w' (ix2 n k) = w (ix2 n k)) :
    rowDot x' w' r' n = rowDot x w r n := by
  unfold rowDot
  exact Finset.sum_congr rfl fun k _ => by rw [hx k, hw k]

/-- The bridge at row r' of one matrix is the bridge at row r of another whose row r is the same. -/
theorem bridge_congr {A A' : Nat}
    {enc : (⟨2, ![A, 1024]⟩ : Shape).Idx → EReal} {enc' : (⟨2, ![A', 1024]⟩ : Shape).Idx → EReal}
    {w w' : (⟨2, ![512, 1024]⟩ : Shape).Idx → EReal} {b b' : Fin 512 → EReal} {r : Fin A} {r' : Fin A'} (j : Fin 1024)
    (he : ∀ k, enc' (ix2 r' k) = enc (ix2 r k)) (hw : ∀ n k, w' (ix2 n k) = w (ix2 n k)) (hb : ∀ n, b' n = b n) :
    bridge enc' w' b' r' j = bridge enc w b r j := by
  unfold bridge
  rw [hb, rowDot_congr _ he (hw _)]

/-- A gate pre-activation depends on row r of the input and of the state only. -/
theorem gate_congr {A A' K : Nat}
    {x : (⟨2, ![A, K]⟩ : Shape).Idx → EReal} {x' : (⟨2, ![A', K]⟩ : Shape).Idx → EReal}
    {hc : (⟨2, ![A, 1024]⟩ : Shape).Idx → EReal} {hc' : (⟨2, ![A', 1024]⟩ : Shape).Idx → EReal}
    {wih wih' : (⟨2, ![4096, K]⟩ : Shape).Idx → EReal} {whh whh' : (⟨2, ![4096, 1024]⟩ : Shape).Idx → EReal}
    {bih bih' bhh bhh' : Fin 4096 → EReal} {r : Fin A} {r' : Fin A'} (n : Fin 4096)
    (hx : ∀ k, x' (ix2 r' k) = x (ix2 r k)) (hh : ∀ k, hc' (ix2 r' k) = hc (ix2 r k))
    (hwi : ∀ n k, wih' (ix2 n k) = wih (ix2 n k)) (hwh : ∀ n k, whh' (ix2 n k) = whh (ix2 n k))
    (hbi : ∀ n, bih' n = bih n) (hbh : ∀ n, bhh' n = bhh n) :
    gate x' hc' wih' whh' bih' bhh' r' n = gate x hc wih whh bih bhh r n := by
  unfold gate
  rw [hbi, hbh, rowDot_congr _ hx (hwi _), rowDot_congr _ hh (hwh _)]

/-- The cell at row r' of one pair of matrices is the cell at row r of another pair whose rows r are the same. -/
theorem cell_congr {A A' K : Nat}
    {x : (⟨2, ![A, K]⟩ : Shape).Idx → EReal} {x' : (⟨2, ![A', K]⟩ : Shape).Idx → EReal}
    {hc : (⟨2, ![A, 1024]⟩ : Shape).Idx → EReal} {hc' : (⟨2, ![A', 1024]⟩ : Shape).Idx → EReal}
    {wih wih' : (⟨2, ![4096, K]⟩ : Shape).Idx → EReal} {whh whh' : (⟨2, ![4096, 1024]⟩ : Shape).Idx → EReal}
    {bih bih' bhh bhh' : Fin 4096 → EReal} {r : Fin A} {r' : Fin A'} (j : Fin 1024)
    (hx : ∀ k, x' (ix2 r' k) = x (ix2 r k)) (hh : ∀ k, hc' (ix2 r' k) = hc (ix2 r k))
    (hwi : ∀ n k, wih' (ix2 n k) = wih (ix2 n k)) (hwh : ∀ n k, whh' (ix2 n k) = whh (ix2 n k))
    (hbi : ∀ n, bih' n = bih n) (hbh : ∀ n, bhh' n = bhh n) :
    cell x' hc' wih' whh' bih' bhh' r' j = cell x hc wih whh bih bhh r j := by
  unfold cell
  rw [gate_congr _ hx hh hwi hwh hbi hbh, gate_congr _ hx hh hwi hwh hbi hbh, gate_congr _ hx hh hwi hwh hbi hbh,
    gate_congr _ hx hh hwi hwh hbi hbh, hh j]

end Cert.Lstm

end
-- ==== Proof.Region0.lean ====
/-
  Region 0 of the kernel's program: the bridge layer over sixteen blocks of 256 rows.

  At grid point t the body loads rows 256 t … 256 t + 255 of the encoder state, the whole bridge matrix and the
  one-row bias, and stores the bridge of those blocks; a block's rows are the array's rows, so what the point writes
  back is the bridge of the whole arrays at those rows, and the sixteen blocks cover the array.
-/
import proofs.«118758_j18124761989796_1_alg».proof.Proof.Gen.KernelIdeal.Frame
import proofs.«118758_j18124761989796_1_alg».proof.Proof.LibBridge
import Idealize.ShloMosaic.Lib.Pipeline.Value
import Idealize.ShloMosaic.Lib.ValueIdx
import proofs.«118758_j18124761989796_1_alg».proof.Proof.SpecCongr

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem Cert.Lstm
open Idealize.ShloMosaic.Pipeline (Dat Cfg Window)

-- the region's entry contents: any contents of the TensorCore's buffers
variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q): the bridge of the three loaded blocks. -/
theorem pay_apply (v0 : Vec Ideal S256x1024 .bf16) (v2 : Vec Ideal S512x1024 .bf16) (v6 : Vec Ideal S1x512 .f32)
    (p : Fin 256) (q : Fin 1024) :
    k0_pay1 (F := Ideal) v0 v2 v6 (ix2 p q) = bridge v0 v2 (fun n => v6 (ix2 (0 : Fin 1) n)) p q :=
  bridgeKern_apply shapeCasts_S256x1024_S256x1024 shapeCasts_S512x1024_S512x1024 shapeCasts_S1x512_S1x512
    transposes_S512x1024_p1_0_S1024x512 broadcasts_S1x512_S256x512 concatenates_S256x512_S256x512_S256x1024_d1 v0 v2 v6 p q

/-- The array the region leaves: the bridge of the encoder state, the bridge matrix and the one-row bias, entry by
    entry, over all 4096 rows. -/
def G (enc : S4096x1024.Idx → EReal) (w : S512x1024.Idx → EReal) (b : S1x512.Idx → EReal) : S4096x1024.Idx → EReal :=
  fun i => bridge enc w (fun n => b (ix2 (0 : Fin 1) n)) ⟨(i 0).val, (i 0).isLt⟩ ⟨(i 1).val, (i 1).isLt⟩

/-- The printed index maps over the grid: the row-blocked windows sit at block (t, 0), the whole-array windows at (0, 0). -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What point t writes back is the rows 256 t … 256 t + 255 of `G` of the entry arrays. -/
theorem flushed_eq (c : Dev nD) (t : Fin cfg0.N) :
    (dat0 V c).flushed 3 t
      = ((cfg0.win 3).blk t).view.read (Elt Ideal) (G (V c main_v10) (V c main_v0) (V c main_v5)) := by
  show (cfg0.win 3).cut (grid0.coords t) ((dat0 V c).after 3 t) = _
  rw [after0_3]
  unfold out0_3
  rw [View.canon_unit_zero hz]
  simp only [View.ld_unit_zero (S := S256x1024) hz, View.ld_unit_zero (S := S512x1024) hz, View.ld_unit_zero (S := S1x512) hz]
  obtain ⟨e0, e1, e2, e3, e4, e5, e6, e7⟩ := idx_facts t
  have ht : t.val < 16 := t.isLt
  funext j
  obtain ⟨p, q, rfl⟩ : ∃ (p : Fin 256) (q : Fin 1024), j = ix2 p q := ⟨j 0, j 1, eq_ix2 j⟩
  show k0_pay1 (F := Ideal) (iblk0 V c 0 t) (iblk0 V c 1 t) (iblk0 V c 2 t) (ix2 p q)
    = G (V c main_v10) (V c main_v0) (V c main_v5) (((cfg0.win 3).blk t).view.emb (ix2 p q))
  refine (pay_apply _ _ _ p q).trans ?_
  have hp : p.val < 256 := p.isLt
  have hemb : ((cfg0.win 3).blk t).view.emb (ix2 p q)
      = (ix2 (⟨t.val * 256 + p.val, by omega⟩ : Fin 4096) q : S4096x1024.Idx) := by
    funext a; apply Fin.ext
    match a with
    | ⟨0, _⟩ => show win0_3.index t (0 : Fin 2) * 256 + 1 * p.val = t.val * 256 + p.val; omega
    | ⟨1, _⟩ => show win0_3.index t (1 : Fin 2) * 1024 + 1 * q.val = q.val; omega
  rw [hemb]
  show _ = bridge (V c main_v10) (V c main_v0) (fun n => V c main_v5 (ix2 (0 : Fin 1) n)) (⟨t.val * 256 + p.val, by omega⟩ : Fin 4096) q
  refine bridge_congr q (fun k => ?_) (fun n k => ?_) (fun n => ?_)
  · show V c main_v10 (((cfg0.win 0).blk t).view.emb (ix2 p k)) = V c main_v10 (ix2 (⟨t.val * 256 + p.val, by omega⟩ : Fin 4096) k)
    refine congrArg (V c main_v10) (funext fun a => Fin.ext ?_)
    match a with
    | ⟨0, _⟩ => show win0_0.index t (0 : Fin 2) * 256 + 1 * p.val = t.val * 256 + p.val; omega
    | ⟨1, _⟩ => show win0_0.index t (1 : Fin 2) * 1024 + 1 * k.val = k.val; omega
  · show V c main_v0 (((cfg0.win 1).blk t).view.emb (ix2 n k)) = V c main_v0 (ix2 n k)
    refine congrArg (V c main_v0) (funext fun a => Fin.ext ?_)
    match a with
    | ⟨0, _⟩ => show win0_1.index t (0 : Fin 2) * 512 + 1 * n.val = n.val; omega
    | ⟨1, _⟩ => show win0_1.index t (1 : Fin 2) * 1024 + 1 * k.val = k.val; omega
  · show V c main_v5 (((cfg0.win 2).blk t).view.emb (ix2 (0 : Fin 1) n)) = V c main_v5 (ix2 (0 : Fin 1) n)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 512 + 1 * n.val = n.val; omega

/-- An index of the array is in point t's block iff each coordinate is in the block's range on its axis. -/
theorem mem_blk (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v11).slice (win0_3.rect t)).set ↔ _
  rw [View.set_slice_whole, Rect.mem_set_unit]
  exact Iff.rfl

/-- Every entry of the array lies in the block of the point its row falls in. -/
theorem cover (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  refine ⟨⟨(i 0).val / 256, by rw [show cfg0.N = 16 from N_0]; omega⟩, flush0_3 _, ?_⟩
  rw [mem_blk]
  obtain ⟨e0, e1, -⟩ := idx_facts ⟨(i 0).val / 256, by rw [show cfg0.N = 16 from N_0]; omega⟩
  intro a
  match a with
  | ⟨0, _⟩ => show win0_3.index _ (0 : Fin 2) * 256 ≤ (i 0).val ∧ (i 0).val < win0_3.index _ (0 : Fin 2) * 256 + 256; rw [e0]; show (i 0).val / 256 * 256 ≤ (i 0).val ∧ (i 0).val < (i 0).val / 256 * 256 + 256; omega
  | ⟨1, _⟩ => show win0_3.index _ (1 : Fin 2) * 1024 ≤ (i 1).val ∧ (i 1).val < win0_3.index _ (1 : Fin 2) * 1024 + 1024; rw [e1]; omega

/-- THE ARRAY the region leaves: the bridge of its entry arrays, entry by entry. -/
theorem final (c : Dev nD) :
    (dat0 V c).arrAt 3 cfg0.N = G (V c main_v10) (V c main_v0) (V c main_v5) :=
  (dat0 V c).arrAt_eq_of_cover 3 (G (V c main_v10) (V c main_v0) (V c main_v5)) (fun t _ => flushed_eq V c t) cover

end Cert.KernelIdeal.Region0

end
-- ==== Proof.LibCellKernel.lean ====
/-
  One recurrent cell in the kernel's spelling, read at an entry (a general lemma: any number of rows A, any input
  width K; hidden width 1024, four gates along 4096 columns).

  The kernel multiplies the input block by the transposed input weights and the state block by the transposed state
  weights (matrix-unit products into zero), adds the two one-row biases broadcast down the rows, cuts the 4096 columns
  into the four gates, and combines them. At the ideal values every step is the textbook one, so the result at (r, j)
  is the cell of Spec.lean.
-/
import proofs.«118758_j18124761989796_1_alg».proof.Proof.Spec
import proofs.«118758_j18124761989796_1_alg».proof.Proof.LibMatmul
import proofs.«118758_j18124761989796_1_alg».proof.Proof.LibLayout
import Idealize.ShloMosaic.Lib.Pipeline.Value
import Idealize.ShloMosaic.PureOps.Ideal.Laws

noncomputable section

namespace Cert.Lstm

open Idealize.ShloMosaic Idealize.ShloMosaic.ValueIdx

variable {A K : Nat}

/-- The cell as the kernel body spells it, over a block of A rows. -/
def cellKern
    (hx : (⟨2, ![A, K]⟩ : Shape).ShapeCasts ⟨2, ![A, K]⟩)
    (hh : (⟨2, ![A, 1024]⟩ : Shape).ShapeCasts ⟨2, ![A, 1024]⟩)
    (hwi : (⟨2, ![4096, K]⟩ : Shape).ShapeCasts ⟨2, ![4096, K]⟩)
    (hwh : (⟨2, ![4096, 1024]⟩ : Shape).ShapeCasts ⟨2, ![4096, 1024]⟩)
    (hb : (⟨2, ![1, 4096]⟩ : Shape).ShapeCasts ⟨2, ![1, 4096]⟩)
    (hti : (⟨2, ![4096, K]⟩ : Shape).Transposes [1, 0] ⟨2, ![K, 4096]⟩)
    (hth : (⟨2, ![4096, 1024]⟩ : Shape).Transposes [1, 0] ⟨2, ![1024, 4096]⟩)
    (hbc : (⟨2, ![1, 4096]⟩ : Shape).Broadcasts ⟨2, ![A, 4096]⟩)
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (hlt : FTy.bits .bf16 < FTy.bits .f32)
    (v0 : FVec Ideal ⟨2, ![A, K]⟩ .bf16) (v2 : FVec Ideal ⟨2, ![A, 1024]⟩ .f32)
    (v5 : FVec Ideal ⟨2, ![4096, K]⟩ .bf16) (v7 : FVec Ideal ⟨2, ![4096, 1024]⟩ .bf16)
    (v14 v18 : FVec Ideal ⟨2, ![1, 4096]⟩ .f32) : FVec Ideal ⟨2, ![A, 1024]⟩ .f32 :=
  have v1 : FVec Ideal ⟨2, ![A, K]⟩ .bf16 := shapeCast ⟨2, ![A, K]⟩ v0 hx
  have v3 : FVec Ideal ⟨2, ![A, 1024]⟩ .f32 := shapeCast ⟨2, ![A, 1024]⟩ v2 hh
  have v4 : FVec Ideal ⟨2, ![A, 1024]⟩ .bf16 := truncf .bf16 v3 hlt
  have v6 : FVec Ideal ⟨2, ![4096, K]⟩ .bf16 := shapeCast ⟨2, ![4096, K]⟩ v5 hwi
  have v8 : FVec Ideal ⟨2, ![4096, 1024]⟩ .bf16 := shapeCast ⟨2, ![4096, 1024]⟩ v7 hwh
  have v9 : FVec Ideal ⟨2, ![K, 4096]⟩ .bf16 := transpose ⟨2, ![K, 4096]⟩ [1, 0] v6 hti
  have cst : FVec Ideal ⟨2, ![A, 4096]⟩ .f32 := constant ⟨2, ![A, 4096]⟩ .f32 0x00000000#32
  have v10 : FVec Ideal ⟨2, ![A, 4096]⟩ .f32 := matmul (DotDims.plain A K 4096) none v1 v9 cst
  have v11 : FVec Ideal ⟨2, ![1024, 4096]⟩ .bf16 := transpose ⟨2, ![1024, 4096]⟩ [1, 0] v8 hth
  have cst_7 : FVec Ideal ⟨2, ![A, 4096]⟩ .f32 := constant ⟨2, ![A, 4096]⟩ .f32 0x00000000#32
  have v12 : FVec Ideal ⟨2, ![A, 4096]⟩ .f32 := matmul (DotDims.plain A 1024 4096) none v4 v11 cst_7
  have v13 : FVec Ideal ⟨2, ![A, 4096]⟩ .f32 := addf v10 v12
  have v15 : FVec Ideal ⟨2, ![1, 4096]⟩ .f32 := shapeCast ⟨2, ![1, 4096]⟩ v14 hb
  have v16 : FVec Ideal ⟨2, ![A, 4096]⟩ .f32 := broadcastTo ⟨2, ![A, 4096]⟩ v15 hbc
  have v17 : FVec Ideal ⟨2, ![A, 4096]⟩ .f32 := addf v13 v16
  have v19 : FVec Ideal ⟨2, ![1, 4096]⟩ .f32 := shapeCast ⟨2, ![1, 4096]⟩ v18 hb
  have v20 : FVec Ideal ⟨2, ![A, 4096]⟩ .f32 := broadcastTo ⟨2, ![A, 4096]⟩ v19 hbc
  have v21 : FVec Ideal ⟨2, ![A, 4096]⟩ .f32 := addf v17 v20
  have v22 : FVec Ideal ⟨2, ![A, 1024]⟩ .f32 := extractStridedSlice ⟨2, ![A, 1024]⟩ ![0, 0] v21 hs0
  have v23 : FVec Ideal ⟨2, ![A, 1024]⟩ .f32 := extractStridedSlice ⟨2, ![A, 1024]⟩ ![0, 1024] v21 hs1
  have v24 : FVec Ideal ⟨2, ![A, 1024]⟩ .f32 := extractStridedSlice ⟨2, ![A, 1024]⟩ ![0, 2048] v21 hs2
  have v25 : FVec Ideal ⟨2, ![A, 1024]⟩ .f32 := extractStridedSlice ⟨2, ![A, 1024]⟩ ![0, 3072] v21 hs3
  have v26 : FVec Ideal ⟨2, ![A, 1024]⟩ .f32 := logistic v22
  have v27 : FVec Ideal ⟨2, ![A, 1024]⟩ .f32 := logistic v23
  have v28 : FVec Ideal ⟨2, ![A, 1024]⟩ .f32 := logistic v25
  have v29 : FVec Ideal ⟨2, ![A, 1024]⟩ .f32 := tanh v24
  have v30 : FVec Ideal ⟨2, ![A, 1024]⟩ .f32 := mulf v27 v3
  have v31 : FVec Ideal ⟨2, ![A, 1024]⟩ .f32 := mulf v26 v29
  have v32 : FVec Ideal ⟨2, ![A, 1024]⟩ .f32 := addf v30 v31
  have v33 : FVec Ideal ⟨2, ![A, 1024]⟩ .f32 := tanh v32
  have v34 : FVec Ideal ⟨2, ![A, 1024]⟩ .f32 := mulf v28 v33
  v34

section Pieces

/-- The combination of the four gates, read at (r, j), over any pre-activation matrix p and cell state c. -/
private theorem combine_apply
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (p : FVec Ideal ⟨2, ![A, 4096]⟩ .f32) (c : FVec Ideal ⟨2, ![A, 1024]⟩ .f32) (r : Fin A) (j : Fin 1024) :
    mulf (logistic (extractStridedSlice ⟨2, ![A, 1024]⟩ ![0, 3072] p hs3))
        (tanh (addf (mulf (logistic (extractStridedSlice ⟨2, ![A, 1024]⟩ ![0, 1024] p hs1)) c)
          (mulf (logistic (extractStridedSlice ⟨2, ![A, 1024]⟩ ![0, 0] p hs0))
            (tanh (extractStridedSlice ⟨2, ![A, 1024]⟩ ![0, 2048] p hs2))))) (ix2 r j)
      = Ideal.logistic (p (ix2 r ⟨3072 + j.val, by have := j.isLt; omega⟩)) *
          Ideal.tanh (Ideal.logistic (p (ix2 r ⟨1024 + j.val, by have := j.isLt; omega⟩)) * c (ix2 r j)
            + Ideal.logistic (p (ix2 r ⟨j.val, by have := j.isLt; omega⟩))
              * Ideal.tanh (p (ix2 r ⟨2048 + j.val, by have := j.isLt; omega⟩))) := by
  have e0 : extractStridedSlice ⟨2, ![A, 1024]⟩ ![0, 0] p hs0 (ix2 r j)
      = p (ix2 r ⟨j.val, by have := j.isLt; omega⟩) :=
    extractStridedSlice_apply _ p hs0 (ix2 r j) _ (fun a => by
      match a with
      | ⟨0, _⟩ => show r.val = 0 + r.val; omega
      | ⟨1, _⟩ => show j.val = 0 + j.val; omega)
  have e1 : extractStridedSlice ⟨2, ![A, 1024]⟩ ![0, 1024] p hs1 (ix2 r j)
      = p (ix2 r ⟨1024 + j.val, by have := j.isLt; omega⟩) :=
    extractStridedSlice_apply _ p hs1 (ix2 r j) _ (fun a => by
      match a with
      | ⟨0, _⟩ => show r.val = 0 + r.val; omega
      | ⟨1, _⟩ => show 1024 + j.val = 1024 + j.val; rfl)
  have e2 : extractStridedSlice ⟨2, ![A, 1024]⟩ ![0, 2048] p hs2 (ix2 r j)
      = p (ix2 r ⟨2048 + j.val, by have := j.isLt; omega⟩) :=
    extractStridedSlice_apply _ p hs2 (ix2 r j) _ (fun a => by
      match a with
      | ⟨0, _⟩ => show r.val = 0 + r.val; omega
      | ⟨1, _⟩ => show 2048 + j.val = 2048 + j.val; rfl)
  have e3 : extractStridedSlice ⟨2, ![A, 1024]⟩ ![0, 3072] p hs3 (ix2 r j)
      = p (ix2 r ⟨3072 + j.val, by have := j.isLt; omega⟩) :=
    extractStridedSlice_apply _ p hs3 (ix2 r j) _ (fun a => by
      match a with
      | ⟨0, _⟩ => show r.val = 0 + r.val; omega
      | ⟨1, _⟩ => show 3072 + j.val = 3072 + j.val; rfl)
  show Ideal.logistic (extractStridedSlice ⟨2, ![A, 1024]⟩ ![0, 3072] p hs3 (ix2 r j)) *
      Ideal.tanh (Ideal.logistic (extractStridedSlice ⟨2, ![A, 1024]⟩ ![0, 1024] p hs1 (ix2 r j)) * c (ix2 r j)
        + Ideal.logistic (extractStridedSlice ⟨2, ![A, 1024]⟩ ![0, 0] p hs0 (ix2 r j))
          * Ideal.tanh (extractStridedSlice ⟨2, ![A, 1024]⟩ ![0, 2048] p hs2 (ix2 r j))) = _
  rw [e0, e1, e2, e3]

/-- A product with transposed weights into zero, at (r, n), is the dot product of row r with the weights' row n. -/
private theorem matT_apply {φ : FTy} {K' : Nat}
    (ht : (⟨2, ![4096, K']⟩ : Shape).Transposes [1, 0] ⟨2, ![K', 4096]⟩)
    (x : FVec Ideal ⟨2, ![A, K']⟩ φ) (w : FVec Ideal ⟨2, ![4096, K']⟩ .bf16) (r : Fin A) (n : Fin 4096) :
    matmul (DotDims.plain A K' 4096) none x (transpose ⟨2, ![K', 4096]⟩ [1, 0] w ht)
        (constant ⟨2, ![A, 4096]⟩ .f32 0x00000000#32) (ix2 r n)
      = rowDot x w r n := by
  refine (Cert.Lib.Matmul.matmul_zero_apply none x (transpose ⟨2, ![K', 4096]⟩ [1, 0] w ht) r n).trans ?_
  unfold rowDot
  refine Finset.sum_congr rfl fun k _ => ?_
  congr 1
  refine transpose_apply [1, 0] w ht (ix2 k n) (ix2 n k) (fun b => ?_)
  match b with
  | ⟨0, _⟩ => rfl
  | ⟨1, _⟩ => rfl

/-- A one-row bias broadcast down the rows, at (r, n), is the row's entry n. -/
private theorem biasRow_apply
    (hb : (⟨2, ![1, 4096]⟩ : Shape).ShapeCasts ⟨2, ![1, 4096]⟩)
    (hbc : (⟨2, ![1, 4096]⟩ : Shape).Broadcasts ⟨2, ![A, 4096]⟩)
    (v : FVec Ideal ⟨2, ![1, 4096]⟩ .f32) (r : Fin A) (n : Fin 4096) :
    broadcastTo ⟨2, ![A, 4096]⟩ (shapeCast ⟨2, ![1, 4096]⟩ v hb) hbc (ix2 r n) = v (ix2 (0 : Fin 1) n) := by
  rw [shapeCast_self]
  refine broadcastTo_apply v hbc (ix2 r n) (ix2 (0 : Fin 1) n) (fun a => ?_)
  match a with
  | ⟨0, _⟩ => simp
  | ⟨1, _⟩ =>
    show n.val = if 4096 = 1 then 0 else n.val
    rfl

/-- The pre-activation matrix at (r, n) is the gate formula of the specification. -/
private theorem preact_apply
    (hx : (⟨2, ![A, K]⟩ : Shape).ShapeCasts ⟨2, ![A, K]⟩)
    (hh : (⟨2, ![A, 1024]⟩ : Shape).ShapeCasts ⟨2, ![A, 1024]⟩)
    (hwi : (⟨2, ![4096, K]⟩ : Shape).ShapeCasts ⟨2, ![4096, K]⟩)
    (hwh : (⟨2, ![4096, 1024]⟩ : Shape).ShapeCasts ⟨2, ![4096, 1024]⟩)
    (hb : (⟨2, ![1, 4096]⟩ : Shape).ShapeCasts ⟨2, ![1, 4096]⟩)
    (hti : (⟨2, ![4096, K]⟩ : Shape).Transposes [1, 0] ⟨2, ![K, 4096]⟩)
    (hth : (⟨2, ![4096, 1024]⟩ : Shape).Transposes [1, 0] ⟨2, ![1024, 4096]⟩)
    (hbc : (⟨2, ![1, 4096]⟩ : Shape).Broadcasts ⟨2, ![A, 4096]⟩)
    (hlt : FTy.bits .bf16 < FTy.bits .f32)
    (v0 : FVec Ideal ⟨2, ![A, K]⟩ .bf16) (v2 : FVec Ideal ⟨2, ![A, 1024]⟩ .f32)
    (v5 : FVec Ideal ⟨2, ![4096, K]⟩ .bf16) (v7 : FVec Ideal ⟨2, ![4096, 1024]⟩ .bf16)
    (v14 v18 : FVec Ideal ⟨2, ![1, 4096]⟩ .f32) (r : Fin A) (n : Fin 4096) :
    addf (addf (addf
        (matmul (DotDims.plain A K 4096) none (shapeCast ⟨2, ![A, K]⟩ v0 hx)
          (transpose ⟨2, ![K, 4096]⟩ [1, 0] (shapeCast ⟨2, ![4096, K]⟩ v5 hwi) hti)
          (constant ⟨2, ![A, 4096]⟩ .f32 0x00000000#32))
        (matmul (DotDims.plain A 1024 4096) none (truncf .bf16 (shapeCast ⟨2, ![A, 1024]⟩ v2 hh) hlt)
          (transpose ⟨2, ![1024, 4096]⟩ [1, 0] (shapeCast ⟨2, ![4096, 1024]⟩ v7 hwh) hth)
          (constant ⟨2, ![A, 4096]⟩ .f32 0x00000000#32)))
        (broadcastTo ⟨2, ![A, 4096]⟩ (shapeCast ⟨2, ![1, 4096]⟩ v14 hb) hbc))
        (broadcastTo ⟨2, ![A, 4096]⟩ (shapeCast ⟨2, ![1, 4096]⟩ v18 hb) hbc) (ix2 r n)
      = gate v0 v2 v5 v7 (fun n => v14 (ix2 (0 : Fin 1) n)) (fun n => v18 (ix2 (0 : Fin 1) n)) r n := by
  rw [shapeCast_self v0 hx, shapeCast_self v5 hwi, shapeCast_self v2 hh, shapeCast_self v7 hwh]
  rw [addf_apply, addf_apply, addf_apply]
  rw [matT_apply hti v0 v5 r n, matT_apply hth (truncf .bf16 v2 hlt) v7 r n, biasRow_apply hb hbc v14 r n,
    biasRow_apply hb hbc v18 r n]
  rfl

end Pieces

/-- The kernel's cell at (r, j) is the cell of the specification, the two bias rows read at their one row. -/
theorem cellKern_apply
    (hx : (⟨2, ![A, K]⟩ : Shape).ShapeCasts ⟨2, ![A, K]⟩)
    (hh : (⟨2, ![A, 1024]⟩ : Shape).ShapeCasts ⟨2, ![A, 1024]⟩)
    (hwi : (⟨2, ![4096, K]⟩ : Shape).ShapeCasts ⟨2, ![4096, K]⟩)
    (hwh : (⟨2, ![4096, 1024]⟩ : Shape).ShapeCasts ⟨2, ![4096, 1024]⟩)
    (hb : (⟨2, ![1, 4096]⟩ : Shape).ShapeCasts ⟨2, ![1, 4096]⟩)
    (hti : (⟨2, ![4096, K]⟩ : Shape).Transposes [1, 0] ⟨2, ![K, 4096]⟩)
    (hth : (⟨2, ![4096, 1024]⟩ : Shape).Transposes [1, 0] ⟨2, ![1024, 4096]⟩)
    (hbc : (⟨2, ![1, 4096]⟩ : Shape).Broadcasts ⟨2, ![A, 4096]⟩)
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (hlt : FTy.bits .bf16 < FTy.bits .f32)
    (v0 : FVec Ideal ⟨2, ![A, K]⟩ .bf16) (v2 : FVec Ideal ⟨2, ![A, 1024]⟩ .f32)
    (v5 : FVec Ideal ⟨2, ![4096, K]⟩ .bf16) (v7 : FVec Ideal ⟨2, ![4096, 1024]⟩ .bf16)
    (v14 v18 : FVec Ideal ⟨2, ![1, 4096]⟩ .f32) (r : Fin A) (j : Fin 1024) :
    cellKern hx hh hwi hwh hb hti hth hbc hs0 hs1 hs2 hs3 hlt v0 v2 v5 v7 v14 v18 (ix2 r j)
      = cell v0 v2 v5 v7 (fun n => v14 (ix2 (0 : Fin 1) n)) (fun n => v18 (ix2 (0 : Fin 1) n)) r j := by
  unfold cellKern
  refine (combine_apply hs0 hs1 hs2 hs3 _ _ r j).trans ?_
  unfold cell
  rw [preact_apply hx hh hwi hwh hb hti hth hbc hlt v0 v2 v5 v7 v14 v18 r,
    preact_apply hx hh hwi hwh hb hti hth hbc hlt v0 v2 v5 v7 v14 v18 r,
    preact_apply hx hh hwi hwh hb hti hth hbc hlt v0 v2 v5 v7 v14 v18 r,
    preact_apply hx hh hwi hwh hb hti hth hbc hlt v0 v2 v5 v7 v14 v18 r, shapeCast_self v2 hh]

end Cert.Lstm

end
-- ==== Proof.SpecArrays.lean ====
/-
  The decoder step's three arrays as whole functions of the arguments: the initial state (the bridge layer, its 512
  columns laid out twice) and a cell's new hidden state over all 4096 rows, the bias vectors read entry by entry.
-/
import proofs.«118758_j18124761989796_1_alg».proof.Proof.Spec

noncomputable section

namespace Cert.Lstm

open Idealize.ShloMosaic Idealize.ShloMosaic.ValueIdx

/-- The initial hidden-and-cell state: the bridge of the encoder state, entry by entry. -/
def hc0 (enc : (⟨2, ![4096, 1024]⟩ : Shape).Idx → EReal) (w : (⟨2, ![512, 1024]⟩ : Shape).Idx → EReal)
    (b : (⟨1, ![512]⟩ : Shape).Idx → EReal) : (⟨2, ![4096, 1024]⟩ : Shape).Idx → EReal :=
  fun i => bridge enc w (fun n => b (ix1 n)) ⟨(i 0).val, (i 0).isLt⟩ ⟨(i 1).val, (i 1).isLt⟩

/-- A cell's new hidden state over all rows, from its input, the state, the weights and the two bias vectors. -/
def hNext {K : Nat} (x : (⟨2, ![4096, K]⟩ : Shape).Idx → EReal) (hc : (⟨2, ![4096, 1024]⟩ : Shape).Idx → EReal)
    (wih : (⟨2, ![4096, K]⟩ : Shape).Idx → EReal) (whh : (⟨2, ![4096, 1024]⟩ : Shape).Idx → EReal)
    (bih bhh : (⟨1, ![4096]⟩ : Shape).Idx → EReal) : (⟨2, ![4096, 1024]⟩ : Shape).Idx → EReal :=
  fun i => cell x hc wih whh (fun n => bih (ix1 n)) (fun n => bhh (ix1 n)) ⟨(i 0).val, (i 0).isLt⟩ ⟨(i 1).val, (i 1).isLt⟩

end Cert.Lstm

end
-- ==== Proof.KernelValue.lean ====
/-
  What the kernel's program leaves in its two result buffers, as functions of the arguments.

  The buffer contents are followed through the program's seven stretches: a host stretch only changes the buffers
  it writes (a change of float format is the identity on the ideal values; a bias vector is laid out as one row),
  a region only changes its output array, which ends holding the bridge or the cell of the region's input arrays.
  So the first result is the second cell's hidden state and the second the two hidden states stacked.
-/
import proofs.«118758_j18124761989796_1_alg».proof.Proof.Gen.KernelIdeal.Frame
import proofs.«118758_j18124761989796_1_alg».proof.Proof.Region0
import proofs.«118758_j18124761989796_1_alg».proof.Proof.Region1
import proofs.«118758_j18124761989796_1_alg».proof.Proof.Region2
import proofs.«118758_j18124761989796_1_alg».proof.Proof.SpecArrays
import proofs.«118758_j18124761989796_1_alg».proof.Proof.LibLayout
import Idealize.ShloMosaic.Lib.StableHlo.Run
import Idealize.ShloMosaic.Lib.Pipeline.Value
import Idealize.ShloMosaic.Lib.ValueIdx

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem Cert.Lstm
open Idealize.ShloMosaic.Pipeline (Dat Cfg Window)

variable (m : (ℓ : Loc nD τ sig) → Buf (Elt Ideal) ℓ) (ρ : Dev nD → PrngReg)

/-- No operation of a host stretch writes the buffer: the list of write sets, decided reference by reference. -/
local macro "not_written" : tactic =>
  `(tactic| (refine List.forall_iff_forall_mem.mp ?_
             simp only [hostOps0, hostOps1, hostOps2, hostOps3, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The values the three regions compute, as functions of the arguments -/

/-- The embedding rows the program gathers: the table's rows at the token indices, a negative index counted from the
    table's end (the host program's own operations, kept whole: both programs apply the same ones). -/
def xK (c : Dev nD) : S4096x2048.Idx → EReal :=
  Host.gather gather_S32000x2048_S4096x1_S4096x2048_1_0_n_n_0_1_12048 (m ((c : Thread nD τ).loc main_arg4))
    (broadcastInDim S4096x1 ![0] bcast_S4096_S4096x1_0
      (select (cmpi .slt (m ((c : Thread nD τ).loc main_arg0)) (broadcastInDim S4096 ![] bcast_S_S4096 (constantI S_ 32 0#32)))
        (addi (m ((c : Thread nD τ).loc main_arg0)) (broadcastInDim S4096 ![] bcast_S_S4096 (constantI S_ 32 32000#32))) (m ((c : Thread nD τ).loc main_arg0))))

/-- The initial state. -/
def HC (c : Dev nD) : S4096x1024.Idx → EReal := hc0 (m ((c : Thread nD τ).loc main_arg1)) (m ((c : Thread nD τ).loc main_arg2)) (m ((c : Thread nD τ).loc main_arg3))
/-- The first cell's hidden state. -/
def H1 (c : Dev nD) : S4096x1024.Idx → EReal := hNext (xK m c) (HC m c) (m ((c : Thread nD τ).loc main_arg5)) (m ((c : Thread nD τ).loc main_arg6)) (m ((c : Thread nD τ).loc main_arg7)) (m ((c : Thread nD τ).loc main_arg8))
/-- The second cell's hidden state. -/
def H2 (c : Dev nD) : S4096x1024.Idx → EReal := hNext (H1 m c) (HC m c) (m ((c : Thread nD τ).loc main_arg9)) (m ((c : Thread nD τ).loc main_arg10)) (m ((c : Thread nD τ).loc main_arg11)) (m ((c : Thread nD τ).loc main_arg12))

/-! ## The first host stretch: format changes of the matrices (the identity on the ideal values) and the bias vectors as rows -/

theorem W1_v10 (c : Dev nD) : (W1 m ρ c (Proc.devRef .tc main_v10) : S4096x1024.Idx → EReal) = m ((c : Thread nD τ).loc main_arg1) := by
  show StableHlo.after hostOps0 (W0 m ρ c) (Proc.devRef .tc main_v10) = _
  after_results
  rfl
theorem W1_v0 (c : Dev nD) : (W1 m ρ c (Proc.devRef .tc main_v0) : S512x1024.Idx → EReal) = m ((c : Thread nD τ).loc main_arg2) := by
  show StableHlo.after hostOps0 (W0 m ρ c) (Proc.devRef .tc main_v0) = _
  after_results
  rfl
theorem W1_v1 (c : Dev nD) : (W1 m ρ c (Proc.devRef .tc main_v1) : S4096x2048.Idx → EReal) = m ((c : Thread nD τ).loc main_arg5) := by
  show StableHlo.after hostOps0 (W0 m ρ c) (Proc.devRef .tc main_v1) = _
  after_results
  rfl
theorem W1_v2 (c : Dev nD) : (W1 m ρ c (Proc.devRef .tc main_v2) : S4096x1024.Idx → EReal) = m ((c : Thread nD τ).loc main_arg6) := by
  show StableHlo.after hostOps0 (W0 m ρ c) (Proc.devRef .tc main_v2) = _
  after_results
  rfl
theorem W1_v3 (c : Dev nD) : (W1 m ρ c (Proc.devRef .tc main_v3) : S4096x1024.Idx → EReal) = m ((c : Thread nD τ).loc main_arg9) := by
  show StableHlo.after hostOps0 (W0 m ρ c) (Proc.devRef .tc main_v3) = _
  after_results
  rfl
theorem W1_v4 (c : Dev nD) : (W1 m ρ c (Proc.devRef .tc main_v4) : S4096x1024.Idx → EReal) = m ((c : Thread nD τ).loc main_arg10) := by
  show StableHlo.after hostOps0 (W0 m ρ c) (Proc.devRef .tc main_v4) = _
  after_results
  rfl
theorem W1_v5 (c : Dev nD) : (W1 m ρ c (Proc.devRef .tc main_v5) : S1x512.Idx → EReal) = shapeCast S1x512 (m ((c : Thread nD τ).loc main_arg3)) shapeCasts_S512_S1x512 := by
  show StableHlo.after hostOps0 (W0 m ρ c) (Proc.devRef .tc main_v5) = _
  after_results
  rfl
theorem W1_v6 (c : Dev nD) : (W1 m ρ c (Proc.devRef .tc main_v6) : S1x4096.Idx → EReal) = shapeCast S1x4096 (m ((c : Thread nD τ).loc main_arg7)) shapeCasts_S4096_S1x4096 := by
  show StableHlo.after hostOps0 (W0 m ρ c) (Proc.devRef .tc main_v6) = _
  after_results
  rfl
theorem W1_v7 (c : Dev nD) : (W1 m ρ c (Proc.devRef .tc main_v7) : S1x4096.Idx → EReal) = shapeCast S1x4096 (m ((c : Thread nD τ).loc main_arg8)) shapeCasts_S4096_S1x4096 := by
  show StableHlo.after hostOps0 (W0 m ρ c) (Proc.devRef .tc main_v7) = _
  after_results
  rfl
theorem W1_v8 (c : Dev nD) : (W1 m ρ c (Proc.devRef .tc main_v8) : S1x4096.Idx → EReal) = shapeCast S1x4096 (m ((c : Thread nD τ).loc main_arg11)) shapeCasts_S4096_S1x4096 := by
  show StableHlo.after hostOps0 (W0 m ρ c) (Proc.devRef .tc main_v8) = _
  after_results
  rfl
theorem W1_v9 (c : Dev nD) : (W1 m ρ c (Proc.devRef .tc main_v9) : S1x4096.Idx → EReal) = shapeCast S1x4096 (m ((c : Thread nD τ).loc main_arg12)) shapeCasts_S4096_S1x4096 := by
  show StableHlo.after hostOps0 (W0 m ρ c) (Proc.devRef .tc main_v9) = _
  after_results
  rfl
theorem W1_arg0 (c : Dev nD) : W1 m ρ c (Proc.devRef .tc main_arg0) = m ((c : Thread nD τ).loc main_arg0) :=
  StableHlo.after_of_forall_not_mem (b := Proc.devRef .tc main_arg0) hostOps0 (W0 m ρ c) (by not_written)
theorem W1_arg4 (c : Dev nD) : W1 m ρ c (Proc.devRef .tc main_arg4) = m ((c : Thread nD τ).loc main_arg4) :=
  StableHlo.after_of_forall_not_mem (b := Proc.devRef .tc main_arg4) hostOps0 (W0 m ρ c) (by not_written)

/-! ## Region 0 leaves the initial state; nothing else moves -/

theorem W2_v11 (c : Dev nD) : (W2 m ρ c (Proc.devRef .tc main_v11) : S4096x1024.Idx → EReal) = HC m c := by
  refine (W2_arr m ρ c 3).trans ?_
  refine (Region0.final (V1 m ρ) c).trans ?_
  show Region0.G (W1 m ρ c (Proc.devRef .tc main_v10)) (W1 m ρ c (Proc.devRef .tc main_v0)) (W1 m ρ c (Proc.devRef .tc main_v5)) = _
  rw [W1_v10, W1_v0, W1_v5]
  funext i
  unfold Region0.G HC hc0
  simp only [Cert.Lib.Layout.rowCast_apply]

theorem W2_v1 (c : Dev nD) : W2 m ρ c (Proc.devRef .tc main_v1) = W1 m ρ c (Proc.devRef .tc main_v1) := W2_of_ne m ρ c main_v1 (by decide)
theorem W2_v2 (c : Dev nD) : W2 m ρ c (Proc.devRef .tc main_v2) = W1 m ρ c (Proc.devRef .tc main_v2) := W2_of_ne m ρ c main_v2 (by decide)
theorem W2_v3 (c : Dev nD) : W2 m ρ c (Proc.devRef .tc main_v3) = W1 m ρ c (Proc.devRef .tc main_v3) := W2_of_ne m ρ c main_v3 (by decide)
theorem W2_v4 (c : Dev nD) : W2 m ρ c (Proc.devRef .tc main_v4) = W1 m ρ c (Proc.devRef .tc main_v4) := W2_of_ne m ρ c main_v4 (by decide)
theorem W2_v6 (c : Dev nD) : W2 m ρ c (Proc.devRef .tc main_v6) = W1 m ρ c (Proc.devRef .tc main_v6) := W2_of_ne m ρ c main_v6 (by decide)
theorem W2_v7 (c : Dev nD) : W2 m ρ c (Proc.devRef .tc main_v7) = W1 m ρ c (Proc.devRef .tc main_v7) := W2_of_ne m ρ c main_v7 (by decide)
theorem W2_v8 (c : Dev nD) : W2 m ρ c (Proc.devRef .tc main_v8) = W1 m ρ c (Proc.devRef .tc main_v8) := W2_of_ne m ρ c main_v8 (by decide)
theorem W2_v9 (c : Dev nD) : W2 m ρ c (Proc.devRef .tc main_v9) = W1 m ρ c (Proc.devRef .tc main_v9) := W2_of_ne m ρ c main_v9 (by decide)
theorem W2_arg0 (c : Dev nD) : W2 m ρ c (Proc.devRef .tc main_arg0) = W1 m ρ c (Proc.devRef .tc main_arg0) := W2_of_ne m ρ c main_arg0 (by decide)
theorem W2_arg4 (c : Dev nD) : W2 m ρ c (Proc.devRef .tc main_arg4) = W1 m ρ c (Proc.devRef .tc main_arg4) := W2_of_ne m ρ c main_arg4 (by decide)

/-! ## The second host stretch gathers the embedding rows -/

theorem W3_v19 (c : Dev nD) : (W3 m ρ c (Proc.devRef .tc main_v19) : S4096x2048.Idx → EReal) = xK m c := by
  show StableHlo.after hostOps1 (W2 m ρ c) (Proc.devRef .tc main_v19) = _
  after_results
  rw [W2_arg0, W2_arg4, W1_arg0, W1_arg4]
  rfl

theorem W3_v11 (c : Dev nD) : W3 m ρ c (Proc.devRef .tc main_v11) = W2 m ρ c (Proc.devRef .tc main_v11) :=
  StableHlo.after_of_forall_not_mem (b := Proc.devRef .tc main_v11) hostOps1 (W2 m ρ c) (by not_written)
theorem W3_v1 (c : Dev nD) : W3 m ρ c (Proc.devRef .tc main_v1) = W2 m ρ c (Proc.devRef .tc main_v1) :=
  StableHlo.after_of_forall_not_mem (b := Proc.devRef .tc main_v1) hostOps1 (W2 m ρ c) (by not_written)
theorem W3_v2 (c : Dev nD) : W3 m ρ c (Proc.devRef .tc main_v2) = W2 m ρ c (Proc.devRef .tc main_v2) :=
  StableHlo.after_of_forall_not_mem (b := Proc.devRef .tc main_v2) hostOps1 (W2 m ρ c) (by not_written)
theorem W3_v3 (c : Dev nD) : W3 m ρ c (Proc.devRef .tc main_v3) = W2 m ρ c (Proc.devRef .tc main_v3) :=
  StableHlo.after_of_forall_not_mem (b := Proc.devRef .tc main_v3) hostOps1 (W2 m ρ c) (by not_written)
theorem W3_v4 (c : Dev nD) : W3 m ρ c (Proc.devRef .tc main_v4) = W2 m ρ c (Proc.devRef .tc main_v4) :=
  StableHlo.after_of_forall_not_mem (b := Proc.devRef .tc main_v4) hostOps1 (W2 m ρ c) (by not_written)
theorem W3_v6 (c : Dev nD) : W3 m ρ c (Proc.devRef .tc main_v6) = W2 m ρ c (Proc.devRef .tc main_v6) :=
  StableHlo.after_of_forall_not_mem (b := Proc.devRef .tc main_v6) hostOps1 (W2 m ρ c) (by not_written)
theorem W3_v7 (c : Dev nD) : W3 m ρ c (Proc.devRef .tc main_v7) = W2 m ρ c (Proc.devRef .tc main_v7) :=
  StableHlo.after_of_forall_not_mem (b := Proc.devRef .tc main_v7) hostOps1 (W2 m ρ c) (by not_written)
theorem W3_v8 (c : Dev nD) : W3 m ρ c (Proc.devRef .tc main_v8) = W2 m ρ c (Proc.devRef .tc main_v8) :=
  StableHlo.after_of_forall_not_mem (b := Proc.devRef .tc main_v8) hostOps1 (W2 m ρ c) (by not_written)
theorem W3_v9 (c : Dev nD) : W3 m ρ c (Proc.devRef .tc main_v9) = W2 m ρ c (Proc.devRef .tc main_v9) :=
  StableHlo.after_of_forall_not_mem (b := Proc.devRef .tc main_v9) hostOps1 (W2 m ρ c) (by not_written)

/-! ## Region 1 leaves the first cell's hidden state; its input windows' arrays stay -/

theorem W4_v20 (c : Dev nD) : (W4 m ρ c (Proc.devRef .tc main_v20) : S4096x1024.Idx → EReal) = H1 m c := by
  refine (W4_arr m ρ c 6).trans ?_
  refine (Region1.final (V3 m ρ) c).trans ?_
  show Region1.G (W3 m ρ c (Proc.devRef .tc main_v19)) (W3 m ρ c (Proc.devRef .tc main_v11)) (W3 m ρ c (Proc.devRef .tc main_v1)) (W3 m ρ c (Proc.devRef .tc main_v2)) (W3 m ρ c (Proc.devRef .tc main_v6)) (W3 m ρ c (Proc.devRef .tc main_v7)) = _
  rw [W3_v19, W3_v11, W2_v11, W3_v1, W2_v1, W1_v1, W3_v2, W2_v2, W1_v2, W3_v6, W2_v6, W1_v6, W3_v7, W2_v7, W1_v7]
  funext i
  unfold Region1.G H1 hNext
  simp only [Cert.Lib.Layout.rowCast_apply]

theorem W4_v11 (c : Dev nD) : (W4 m ρ c (Proc.devRef .tc main_v11) : S4096x1024.Idx → EReal) = HC m c :=
  (W4_arr m ρ c 1).trans (((dat1 (V3 m ρ) c).arrAt_in 1 rfl cfg1.N).trans ((A_eq1 (V3 m ρ) c 1).trans ((W3_v11 m ρ c).trans (W2_v11 m ρ c))))

theorem W4_v3 (c : Dev nD) : W4 m ρ c (Proc.devRef .tc main_v3) = W3 m ρ c (Proc.devRef .tc main_v3) := W4_of_ne m ρ c main_v3 (by decide)
theorem W4_v4 (c : Dev nD) : W4 m ρ c (Proc.devRef .tc main_v4) = W3 m ρ c (Proc.devRef .tc main_v4) := W4_of_ne m ρ c main_v4 (by decide)
theorem W4_v8 (c : Dev nD) : W4 m ρ c (Proc.devRef .tc main_v8) = W3 m ρ c (Proc.devRef .tc main_v8) := W4_of_ne m ρ c main_v8 (by decide)
theorem W4_v9 (c : Dev nD) : W4 m ρ c (Proc.devRef .tc main_v9) = W3 m ρ c (Proc.devRef .tc main_v9) := W4_of_ne m ρ c main_v9 (by decide)

/-! ## The third host stretch: a format change of the first hidden state -/

theorem W5_v21 (c : Dev nD) : (W5 m ρ c (Proc.devRef .tc main_v21) : S4096x1024.Idx → EReal) = H1 m c := by
  show StableHlo.after hostOps2 (W4 m ρ c) (Proc.devRef .tc main_v21) = _
  after_results
  rw [W4_v20]
  rfl

theorem W5_v11 (c : Dev nD) : W5 m ρ c (Proc.devRef .tc main_v11) = W4 m ρ c (Proc.devRef .tc main_v11) :=
  StableHlo.after_of_forall_not_mem (b := Proc.devRef .tc main_v11) hostOps2 (W4 m ρ c) (by not_written)
theorem W5_v3 (c : Dev nD) : W5 m ρ c (Proc.devRef .tc main_v3) = W4 m ρ c (Proc.devRef .tc main_v3) :=
  StableHlo.after_of_forall_not_mem (b := Proc.devRef .tc main_v3) hostOps2 (W4 m ρ c) (by not_written)
theorem W5_v4 (c : Dev nD) : W5 m ρ c (Proc.devRef .tc main_v4) = W4 m ρ c (Proc.devRef .tc main_v4) :=
  StableHlo.after_of_forall_not_mem (b := Proc.devRef .tc main_v4) hostOps2 (W4 m ρ c) (by not_written)
theorem W5_v8 (c : Dev nD) : W5 m ρ c (Proc.devRef .tc main_v8) = W4 m ρ c (Proc.devRef .tc main_v8) :=
  StableHlo.after_of_forall_not_mem (b := Proc.devRef .tc main_v8) hostOps2 (W4 m ρ c) (by not_written)
theorem W5_v9 (c : Dev nD) : W5 m ρ c (Proc.devRef .tc main_v9) = W4 m ρ c (Proc.devRef .tc main_v9) :=
  StableHlo.after_of_forall_not_mem (b := Proc.devRef .tc main_v9) hostOps2 (W4 m ρ c) (by not_written)
theorem W5_v20 (c : Dev nD) : W5 m ρ c (Proc.devRef .tc main_v20) = W4 m ρ c (Proc.devRef .tc main_v20) :=
  StableHlo.after_of_forall_not_mem (b := Proc.devRef .tc main_v20) hostOps2 (W4 m ρ c) (by not_written)

/-! ## Region 2 leaves the second cell's hidden state -/

theorem W6_v22 (c : Dev nD) : (W6 m ρ c (Proc.devRef .tc main_v22) : S4096x1024.Idx → EReal) = H2 m c := by
  refine (W6_arr m ρ c 6).trans ?_
  refine (Region2.final (V5 m ρ) c).trans ?_
  show Region2.G (W5 m ρ c (Proc.devRef .tc main_v21)) (W5 m ρ c (Proc.devRef .tc main_v11)) (W5 m ρ c (Proc.devRef .tc main_v3)) (W5 m ρ c (Proc.devRef .tc main_v4)) (W5 m ρ c (Proc.devRef .tc main_v8)) (W5 m ρ c (Proc.devRef .tc main_v9)) = _
  rw [W5_v21, W5_v11, W4_v11, W5_v3, W4_v3, W3_v3, W2_v3, W1_v3, W5_v4, W4_v4, W3_v4, W2_v4, W1_v4,
    W5_v8, W4_v8, W3_v8, W2_v8, W1_v8, W5_v9, W4_v9, W3_v9, W2_v9, W1_v9]
  funext i
  unfold Region2.G H2 hNext
  simp only [Cert.Lib.Layout.rowCast_apply]

theorem W6_v20 (c : Dev nD) : (W6 m ρ c (Proc.devRef .tc main_v20) : S4096x1024.Idx → EReal) = H1 m c :=
  (W6_of_ne m ρ c main_v20 (by decide)).trans ((W5_v20 m ρ c).trans (W4_v20 m ρ c))

/-! ## The last host stretch stacks the two hidden states; the results -/

/-- The first result: the second cell's hidden state. -/
theorem W7_v22 (c : Dev nD) : (W7 m ρ c (Proc.devRef .tc main_v22) : S4096x1024.Idx → EReal) = H2 m c :=
  (StableHlo.after_of_forall_not_mem (b := Proc.devRef .tc main_v22) hostOps3 (W6 m ρ c) (by not_written)).trans (W6_v22 m ρ c)

/-- The two hidden states stacked along a new leading axis, in the program's own operations. -/
def stack (h1 h2 : S4096x1024.Idx → EReal) : S2x4096x1024.Idx → EReal :=
  concatenate S2x4096x1024 0 [⟨S1x4096x1024, broadcastInDim S1x4096x1024 ![1, 2] bcast_S4096x1024_S1x4096x1024_1_2 h1⟩,
    ⟨S1x4096x1024, broadcastInDim S1x4096x1024 ![1, 2] bcast_S4096x1024_S1x4096x1024_1_2 h2⟩] concatenates_S1x4096x1024_S1x4096x1024_S2x4096x1024_d0

/-- The second result: the two hidden states stacked. -/
theorem W7_v25 (c : Dev nD) : (W7 m ρ c (Proc.devRef .tc main_v25) : S2x4096x1024.Idx → EReal) = stack (H1 m c) (H2 m c) := by
  show StableHlo.after hostOps3 (W6 m ρ c) (Proc.devRef .tc main_v25) = _
  after_results
  rw [W6_v20, W6_v22]
  rfl

end Cert.KernelIdeal.KValue

end
-- ==== Proof.LibCellHost.lean ====
/-
  One recurrent cell in the host program's spelling, read at an entry (a general lemma: any number of rows A, any
  input width K; hidden width 1024, four gates along 4096 columns).

  The host program transposes each weight matrix and contracts (dot_general), broadcasts each bias vector to a row
  and then down the rows, slices the four gates, spells the logistic function as 1 / (1 + exp (-z)) with the literal
  one, and combines. At the ideal values the quotient 1 / (1 + exp (-z)) IS the logistic function and the literal is
  the number one, so the result at (r, j) is the cell of Spec.lean.
-/
import proofs.«118758_j18124761989796_1_alg».proof.Proof.Spec
import proofs.«118758_j18124761989796_1_alg».proof.Proof.LibMatmul
import Idealize.ShloMosaic.Lib.Pipeline.Value
import Idealize.ShloMosaic.PureOps.Ideal.Laws

noncomputable section

namespace Cert.Lstm

open Idealize.ShloMosaic Idealize.ShloMosaic.ValueIdx

variable {A K : Nat}

/-- The logistic function as the host program spells it: one over one plus the exponential of the negation. -/
def sigmoidHost (h0 : (⟨0, ![]⟩ : Shape).BroadcastsInDim ⟨2, ![A, 1024]⟩ ![])
    (z : FVec Ideal ⟨2, ![A, 1024]⟩ .f32) : FVec Ideal ⟨2, ![A, 1024]⟩ .f32 :=
  Host.divf (broadcastInDim ⟨2, ![A, 1024]⟩ ![] h0 (constant ⟨0, ![]⟩ .f32 0x3F800000#32))
    (addf (broadcastInDim ⟨2, ![A, 1024]⟩ ![] h0 (constant ⟨0, ![]⟩ .f32 0x3F800000#32)) (Host.exp (Host.negf z)))

/-- The cell as the host program spells it, over A rows. -/
def cellHost
    (hti : (⟨2, ![4096, K]⟩ : Shape).Transposes [1, 0] ⟨2, ![K, 4096]⟩)
    (hth : (⟨2, ![4096, 1024]⟩ : Shape).Transposes [1, 0] ⟨2, ![1024, 4096]⟩)
    (hb1 : (⟨1, ![4096]⟩ : Shape).BroadcastsInDim ⟨2, ![1, 4096]⟩ ![1])
    (hb2 : (⟨2, ![1, 4096]⟩ : Shape).BroadcastsInDim ⟨2, ![A, 4096]⟩ ![0, 1])
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (h0 : (⟨0, ![]⟩ : Shape).BroadcastsInDim ⟨2, ![A, 1024]⟩ ![])
    (x : FVec Ideal ⟨2, ![A, K]⟩ .f32) (hc : FVec Ideal ⟨2, ![A, 1024]⟩ .f32)
    (wih : FVec Ideal ⟨2, ![4096, K]⟩ .f32) (whh : FVec Ideal ⟨2, ![4096, 1024]⟩ .f32)
    (bih bhh : FVec Ideal ⟨1, ![4096]⟩ .f32) : FVec Ideal ⟨2, ![A, 1024]⟩ .f32 :=
  have g : FVec Ideal ⟨2, ![A, 4096]⟩ .f32 :=
    addf (addf (addf (Host.dotGeneral (DotDims.plain A K 4096) none x (transpose ⟨2, ![K, 4096]⟩ [1, 0] wih hti))
        (Host.dotGeneral (DotDims.plain A 1024 4096) none hc (transpose ⟨2, ![1024, 4096]⟩ [1, 0] whh hth)))
      (broadcastInDim ⟨2, ![A, 4096]⟩ ![0, 1] hb2 (broadcastInDim ⟨2, ![1, 4096]⟩ ![1] hb1 bih)))
      (broadcastInDim ⟨2, ![A, 4096]⟩ ![0, 1] hb2 (broadcastInDim ⟨2, ![1, 4096]⟩ ![1] hb1 bhh))
  mulf (sigmoidHost h0 (extractStridedSlice ⟨2, ![A, 1024]⟩ ![0, 3072] g hs3))
    (Host.tanh (addf (mulf (sigmoidHost h0 (extractStridedSlice ⟨2, ![A, 1024]⟩ ![0, 1024] g hs1)) hc)
      (mulf (sigmoidHost h0 (extractStridedSlice ⟨2, ![A, 1024]⟩ ![0, 0] g hs0))
        (Host.tanh (extractStridedSlice ⟨2, ![A, 1024]⟩ ![0, 2048] g hs2)))))

/-- The literal one, broadcast from a scalar, reads the number one at every entry. -/
private theorem one_apply (h0 : (⟨0, ![]⟩ : Shape).BroadcastsInDim ⟨2, ![A, 1024]⟩ ![])
    (i : (⟨2, ![A, 1024]⟩ : Shape).Idx) :
    broadcastInDim ⟨2, ![A, 1024]⟩ ![] h0 (constant (F := Ideal) ⟨0, ![]⟩ .f32 0x3F800000#32) i = (1 : EReal) := by
  have h1 : Ideal.ofBits .f32 0x3F800000#32 = 1 := by
    simp [Ideal.ofBits, Ideal.ieee, -EReal.coe_mul]; norm_num
  exact h1

/-- One over one plus the exponential of the negation IS the logistic function, entry by entry. -/
private theorem sigmoidHost_apply (h0 : (⟨0, ![]⟩ : Shape).BroadcastsInDim ⟨2, ![A, 1024]⟩ ![])
    (z : FVec Ideal ⟨2, ![A, 1024]⟩ .f32) (i : (⟨2, ![A, 1024]⟩ : Shape).Idx) :
    sigmoidHost h0 z i = Ideal.logistic (z i) := by
  have h1 := one_apply h0 i
  show Ideal.div (broadcastInDim ⟨2, ![A, 1024]⟩ ![] h0 (constant (F := Ideal) ⟨0, ![]⟩ .f32 0x3F800000#32) i)
      (broadcastInDim ⟨2, ![A, 1024]⟩ ![] h0 (constant (F := Ideal) ⟨0, ![]⟩ .f32 0x3F800000#32) i
        + Ideal.exp (-(z i)))
    = Ideal.div 1 (1 + Ideal.exp (-(z i)))
  rw [h1]

/-- Contracting a row of x with the transposed weights is the dot product with a row of the weights. -/
private theorem dotT_apply {K' : Nat} (ht : (⟨2, ![4096, K']⟩ : Shape).Transposes [1, 0] ⟨2, ![K', 4096]⟩)
    (x : FVec Ideal ⟨2, ![A, K']⟩ .f32) (w : FVec Ideal ⟨2, ![4096, K']⟩ .f32) (r : Fin A) (n : Fin 4096) :
    Host.dotGeneral (DotDims.plain A K' 4096) none x (transpose ⟨2, ![K', 4096]⟩ [1, 0] w ht) (ix2 r n)
      = rowDot x w r n := by
  refine (Cert.Lib.Matmul.dotGeneral_apply none .single x _ r n).trans ?_
  unfold rowDot
  refine Finset.sum_congr rfl fun k _ => ?_
  congr 1
  refine transpose_apply [1, 0] w ht (ix2 k n) (ix2 n k) ?_
  intro b
  match b with
  | ⟨0, _⟩ => rfl
  | ⟨1, _⟩ => rfl

/-- A bias vector laid out as one row and repeated down the rows holds at (r, n) its entry n. -/
private theorem biasHost_apply
    (hb1 : (⟨1, ![4096]⟩ : Shape).BroadcastsInDim ⟨2, ![1, 4096]⟩ ![1])
    (hb2 : (⟨2, ![1, 4096]⟩ : Shape).BroadcastsInDim ⟨2, ![A, 4096]⟩ ![0, 1])
    (b : FVec Ideal ⟨1, ![4096]⟩ .f32) (r : Fin A) (n : Fin 4096) :
    broadcastInDim ⟨2, ![A, 4096]⟩ ![0, 1] hb2 (broadcastInDim ⟨2, ![1, 4096]⟩ ![1] hb1 b) (ix2 r n)
      = b (ix1 n) := by
  refine (broadcastInDim_apply ![0, 1] hb2 _ (ix2 r n) (ix2 (0 : Fin 1) n) ?_).trans
    (broadcastInDim_apply ![1] hb1 b (ix2 (0 : Fin 1) n) (ix1 n) ?_)
  · intro a
    match a with
    | ⟨0, _⟩ => simp
    | ⟨1, _⟩ =>
      show n.val = if (4096 : Nat) = 1 then 0 else n.val
      rw [if_neg (by decide)]
  · intro a
    match a with
    | ⟨0, _⟩ =>
      show n.val = if (4096 : Nat) = 1 then 0 else n.val
      rw [if_neg (by decide)]

/-- A block of 1024 columns starting at column off, read at (r, j), is the matrix at (r, off + j). -/
private theorem slice_apply {α : Type} (off : Nat)
    (hs : (⟨2, ![A, 4096]⟩ : Shape).Slices ![0, off] ⟨2, ![A, 1024]⟩)
    (g : (⟨2, ![A, 4096]⟩ : Shape).Idx → α) (r : Fin A) (j : Fin 1024) (n : Fin 4096)
    (hn : n.val = off + j.val) :
    extractStridedSlice ⟨2, ![A, 1024]⟩ ![0, off] g hs (ix2 r j) = g (ix2 r n) := by
  refine extractStridedSlice_apply ![0, off] g hs (ix2 r j) (ix2 r n) ?_
  intro a
  match a with
  | ⟨0, _⟩ =>
    show r.val = 0 + r.val
    omega
  | ⟨1, _⟩ => exact hn

/-- The pre-activation matrix at (r, n) is the specification's gate n of row r. -/
private theorem gates_apply
    (hti : (⟨2, ![4096, K]⟩ : Shape).Transposes [1, 0] ⟨2, ![K, 4096]⟩)
    (hth : (⟨2, ![4096, 1024]⟩ : Shape).Transposes [1, 0] ⟨2, ![1024, 4096]⟩)
    (hb1 : (⟨1, ![4096]⟩ : Shape).BroadcastsInDim ⟨2, ![1, 4096]⟩ ![1])
    (hb2 : (⟨2, ![1, 4096]⟩ : Shape).BroadcastsInDim ⟨2, ![A, 4096]⟩ ![0, 1])
    (x : FVec Ideal ⟨2, ![A, K]⟩ .f32) (hc : FVec Ideal ⟨2, ![A, 1024]⟩ .f32)
    (wih : FVec Ideal ⟨2, ![4096, K]⟩ .f32) (whh : FVec Ideal ⟨2, ![4096, 1024]⟩ .f32)
    (bih bhh : FVec Ideal ⟨1, ![4096]⟩ .f32) (r : Fin A) (n : Fin 4096) :
    addf (addf (addf (Host.dotGeneral (DotDims.plain A K 4096) none x (transpose ⟨2, ![K, 4096]⟩ [1, 0] wih hti))
        (Host.dotGeneral (DotDims.plain A 1024 4096) none hc (transpose ⟨2, ![1024, 4096]⟩ [1, 0] whh hth)))
      (broadcastInDim ⟨2, ![A, 4096]⟩ ![0, 1] hb2 (broadcastInDim ⟨2, ![1, 4096]⟩ ![1] hb1 bih)))
      (broadcastInDim ⟨2, ![A, 4096]⟩ ![0, 1] hb2 (broadcastInDim ⟨2, ![1, 4096]⟩ ![1] hb1 bhh)) (ix2 r n)
      = gate x hc wih whh (fun n => bih (ix1 n)) (fun n => bhh (ix1 n)) r n := by
  unfold gate
  rw [addf_apply, addf_apply, addf_apply, dotT_apply, dotT_apply, biasHost_apply, biasHost_apply]

/-- The combining step over any pre-activation matrix g: the four gates are g's four blocks of 1024 columns. -/
private theorem combine_apply
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (h0 : (⟨0, ![]⟩ : Shape).BroadcastsInDim ⟨2, ![A, 1024]⟩ ![])
    (g : FVec Ideal ⟨2, ![A, 4096]⟩ .f32) (hc : FVec Ideal ⟨2, ![A, 1024]⟩ .f32) (r : Fin A) (j : Fin 1024) :
    mulf (sigmoidHost h0 (extractStridedSlice ⟨2, ![A, 1024]⟩ ![0, 3072] g hs3))
      (Host.tanh (addf (mulf (sigmoidHost h0 (extractStridedSlice ⟨2, ![A, 1024]⟩ ![0, 1024] g hs1)) hc)
        (mulf (sigmoidHost h0 (extractStridedSlice ⟨2, ![A, 1024]⟩ ![0, 0] g hs0))
          (Host.tanh (extractStridedSlice ⟨2, ![A, 1024]⟩ ![0, 2048] g hs2))))) (ix2 r j)
      = Ideal.logistic (g (ix2 r ⟨3072 + j.val, by have := j.isLt; omega⟩)) *
        Ideal.tanh (Ideal.logistic (g (ix2 r ⟨1024 + j.val, by have := j.isLt; omega⟩)) * hc (ix2 r j)
          + Ideal.logistic (g (ix2 r ⟨j.val, by have := j.isLt; omega⟩))
            * Ideal.tanh (g (ix2 r ⟨2048 + j.val, by have := j.isLt; omega⟩))) := by
  show sigmoidHost h0 (extractStridedSlice ⟨2, ![A, 1024]⟩ ![0, 3072] g hs3) (ix2 r j) *
      Ideal.tanh (sigmoidHost h0 (extractStridedSlice ⟨2, ![A, 1024]⟩ ![0, 1024] g hs1) (ix2 r j) * hc (ix2 r j)
        + sigmoidHost h0 (extractStridedSlice ⟨2, ![A, 1024]⟩ ![0, 0] g hs0) (ix2 r j)
          * Ideal.tanh (extractStridedSlice ⟨2, ![A, 1024]⟩ ![0, 2048] g hs2 (ix2 r j))) = _
  rw [sigmoidHost_apply, sigmoidHost_apply, sigmoidHost_apply,
    slice_apply 3072 hs3 g r j ⟨3072 + j.val, by have := j.isLt; omega⟩ rfl,
    slice_apply 1024 hs1 g r j ⟨1024 + j.val, by have := j.isLt; omega⟩ rfl,
    slice_apply 0 hs0 g r j ⟨j.val, by have := j.isLt; omega⟩ (Nat.zero_add _).symm,
    slice_apply 2048 hs2 g r j ⟨2048 + j.val, by have := j.isLt; omega⟩ rfl]

/-- The host program's cell at (r, j) is the cell of the specification, the bias vectors read at their entries. -/
theorem cellHost_apply
    (hti : (⟨2, ![4096, K]⟩ : Shape).Transposes [1, 0] ⟨2, ![K, 4096]⟩)
    (hth : (⟨2, ![4096, 1024]⟩ : Shape).Transposes [1, 0] ⟨2, ![1024, 4096]⟩)
    (hb1 : (⟨1, ![4096]⟩ : Shape).BroadcastsInDim ⟨2, ![1, 4096]⟩ ![1])
    (hb2 : (⟨2, ![1, 4096]⟩ : Shape).BroadcastsInDim ⟨2, ![A, 4096]⟩ ![0, 1])
    (hs0 : (⟨2, ![A, 4096]⟩ : Shape).Slices ![0, 0] ⟨2, ![A, 1024]⟩)
    (hs1 : (⟨2, ![A, 4096]⟩ : Shape).Slices ![0, 1024] ⟨2, ![A, 1024]⟩)
    (hs2 : (⟨2, ![A, 4096]⟩ : Shape).Slices ![0, 2048] ⟨2, ![A, 1024]⟩)
    (hs3 : (⟨2, ![A, 4096]⟩ : Shape).Slices ![0, 3072] ⟨2, ![A, 1024]⟩)
    (h0 : (⟨0, ![]⟩ : Shape).BroadcastsInDim ⟨2, ![A, 1024]⟩ ![])
    (x : FVec Ideal ⟨2, ![A, K]⟩ .f32) (hc : FVec Ideal ⟨2, ![A, 1024]⟩ .f32)
    (wih : FVec Ideal ⟨2, ![4096, K]⟩ .f32) (whh : FVec Ideal ⟨2, ![4096, 1024]⟩ .f32)
    (bih bhh : FVec Ideal ⟨1, ![4096]⟩ .f32) (r : Fin A) (j : Fin 1024) :
    cellHost hti hth hb1 hb2 hs0 hs1 hs2 hs3 h0 x hc wih whh bih bhh (ix2 r j)
      = cell x hc wih whh (fun n => bih (ix1 n)) (fun n => bhh (ix1 n)) r j := by
  refine (combine_apply hs0 hs1 hs2 hs3 h0 _ hc r j).trans ?_
  unfold cell
  rw [gates_apply, gates_apply, gates_apply, gates_apply]

end Cert.Lstm

end
-- ==== Proof.RefValue.lean ====
/-
  What the reference program computes, as functions of its arguments.

  Its first six operations are the bridge layer in the host program's spelling, so the state they leave is the
  bridge of the encoder state entry by entry; each of its two runs of some forty operations is one cell in the host
  program's spelling over the stage before it, so it leaves the cell's hidden state; its last three operations
  stack the two hidden states. The gathered embedding rows stay the program's own term.
-/
import proofs.«118758_j18124761989796_1_alg».proof.Proof.Gen.ReferenceIdeal.Run
import proofs.«118758_j18124761989796_1_alg».proof.Proof.Gen.ReferenceIdeal.Read
import proofs.«118758_j18124761989796_1_alg».proof.Proof.LibCellHost
import proofs.«118758_j18124761989796_1_alg».proof.Proof.LibBridge
import proofs.«118758_j18124761989796_1_alg».proof.Proof.SpecArrays
import Idealize.ShloMosaic.Lib.ValueIdx

set_option maxRecDepth 16384

noncomputable section

namespace Cert.RefBridge

open Cert.ReferenceIdeal Cert.ReferenceIdeal.Gen Cert.ReferenceIdeal.Read
open Idealize.ShloMosaic Idealize.ShloMosaic.TcCoe Idealize.ShloMosaic.ValueIdx Idealize.SL.Sem Cert.Lstm

variable (x0 : (⟨S4096, .i32⟩ : BufTy).Contents (Elt Ideal)) (x1 : (⟨S4096x1024, .f32⟩ : BufTy).Contents (Elt Ideal)) (x2 : (⟨S512x1024, .f32⟩ : BufTy).Contents (Elt Ideal))
  (x3 : (⟨S512, .f32⟩ : BufTy).Contents (Elt Ideal)) (x4 : (⟨S32000x2048, .f32⟩ : BufTy).Contents (Elt Ideal)) (x5 : (⟨S4096x2048, .f32⟩ : BufTy).Contents (Elt Ideal))
  (x6 : (⟨S4096x1024, .f32⟩ : BufTy).Contents (Elt Ideal)) (x7 x8 : (⟨S4096, .f32⟩ : BufTy).Contents (Elt Ideal)) (x9 x10 : (⟨S4096x1024, .f32⟩ : BufTy).Contents (Elt Ideal))
  (x11 x12 : (⟨S4096, .f32⟩ : BufTy).Contents (Elt Ideal))

/-- The state the first six operations leave is the bridge of the encoder state. -/
theorem state_eq : val_main_v5 (F := Ideal) x1 x2 x3 = hc0 x1 x2 x3 := by
  funext i
  obtain ⟨r, j, rfl⟩ : ∃ (r : Fin 4096) (j : Fin 1024), i = ix2 r j := ⟨i 0, i 1, eq_ix2 i⟩
  show bridgeHost (A := 4096) transposes_S512x1024_S1024x512_1_0 bcast_S512_S1x512_1 bcast_S1x512_S4096x512_0_1
    concatenates_S4096x512_S4096x512_S4096x1024_d1 x1 x2 x3 (ix2 r j) = _
  rw [bridgeHost_apply]
  rfl

/-- The first cell: its hidden state from the gathered rows and the state. -/
theorem hidden1_eq : val_main_v51 (F := Ideal) x0 x1 x2 x3 x4 x5 x6 x7 x8
    = hNext (val_main_v12 (F := Ideal) x0 x4) (hc0 x1 x2 x3) x5 x6 x7 x8 := by
  funext i
  obtain ⟨r, j, rfl⟩ : ∃ (r : Fin 4096) (j : Fin 1024), i = ix2 r j := ⟨i 0, i 1, eq_ix2 i⟩
  show cellHost (A := 4096) (K := 2048) transposes_S4096x2048_S2048x4096_1_0 transposes_S4096x1024_S1024x4096_1_0
    bcast_S4096_S1x4096_1 bcast_S1x4096_S4096x4096_0_1 slices_S4096x4096_S4096x1024_0_0 slices_S4096x4096_S4096x1024_0_1024
    slices_S4096x4096_S4096x1024_0_2048 slices_S4096x4096_S4096x1024_0_3072 bcast_S_S4096x1024
    (val_main_v12 (F := Ideal) x0 x4) (val_main_v5 (F := Ideal) x1 x2 x3) x5 x6 x7 x8 (ix2 r j) = _
  rw [cellHost_apply, state_eq]
  rfl

/-- The second cell: its hidden state from the first cell's and the state. -/
theorem hidden2_eq : val_main_v90 (F := Ideal) x0 x1 x2 x3 x4 x5 x6 x7 x8 x9 x10 x11 x12
    = hNext (hNext (val_main_v12 (F := Ideal) x0 x4) (hc0 x1 x2 x3) x5 x6 x7 x8) (hc0 x1 x2 x3) x9 x10 x11 x12 := by
  funext i
  obtain ⟨r, j, rfl⟩ : ∃ (r : Fin 4096) (j : Fin 1024), i = ix2 r j := ⟨i 0, i 1, eq_ix2 i⟩
  show cellHost (A := 4096) (K := 1024) transposes_S4096x1024_S1024x4096_1_0 transposes_S4096x1024_S1024x4096_1_0
    bcast_S4096_S1x4096_1 bcast_S1x4096_S4096x4096_0_1 slices_S4096x4096_S4096x1024_0_0 slices_S4096x4096_S4096x1024_0_1024
    slices_S4096x4096_S4096x1024_0_2048 slices_S4096x4096_S4096x1024_0_3072 bcast_S_S4096x1024
    (val_main_v51 (F := Ideal) x0 x1 x2 x3 x4 x5 x6 x7 x8) (val_main_v5 (F := Ideal) x1 x2 x3) x9 x10 x11 x12 (ix2 r j) = _
  rw [cellHost_apply, state_eq, hidden1_eq]
  rfl

/-- The two hidden states stacked along a new leading axis, in the program's own operations. -/
def stack (h1 h2 : S4096x1024.Idx → EReal) : S2x4096x1024.Idx → EReal :=
  concatenate S2x4096x1024 0 [⟨S1x4096x1024, broadcastInDim S1x4096x1024 ![1, 2] bcast_S4096x1024_S1x4096x1024_1_2 h1⟩,
    ⟨S1x4096x1024, broadcastInDim S1x4096x1024 ![1, 2] bcast_S4096x1024_S1x4096x1024_1_2 h2⟩] concatenates_S1x4096x1024_S1x4096x1024_S2x4096x1024_d0

/-- The second result is the two hidden states stacked. -/
theorem stacked_eq : val_main_v93 (F := Ideal) x0 x1 x2 x3 x4 x5 x6 x7 x8 x9 x10 x11 x12
    = stack (hNext (val_main_v12 (F := Ideal) x0 x4) (hc0 x1 x2 x3) x5 x6 x7 x8)
        (hNext (hNext (val_main_v12 (F := Ideal) x0 x4) (hc0 x1 x2 x3) x5 x6 x7 x8) (hc0 x1 x2 x3) x9 x10 x11 x12) := by
  rw [← hidden2_eq, ← hidden1_eq]
  rfl

end Cert.RefBridge

end
-- ==== Proof.lean ====
/-
  The certificate of a decoder step: a bridge layer that turns the encoder state into the initial hidden-and-cell
  state, an embedding lookup, and two recurrent cells, written as three kernels over blocks of 256 rows, against
  the same computation written with whole-array operations.

  On the ideal values both programs compute, entry by entry, the same three arrays (Spec.lean): the bridge of the
  encoder state, the first cell's hidden state from the gathered embedding rows and that state, the second cell's
  from the first. The kernels narrow their matrix operands to a shorter float format and multiply by matrix-unit
  products into zero; on the ideal values a format change is the identity and both products are the plain sum over
  the contracted axis. The kernels' logistic function is one operation where the other program writes
  1 / (1 + exp (-z)) with the literal one; on the ideal values these are one function by definition. The sums, the
  products and the two non-linear functions are applied in the same order on both sides, so no law of arithmetic
  beyond that is needed and the inputs' finiteness is never used.

  The kernel program's frame is the generated one; its run with the results named is that frame's launch called
  again (KernelRun.lean), its results are read through the program's seven stretches (KernelValue.lean over
  Region0/1/2.lean), the other program's run is the generated one and its results are read in RefValue.lean.
-/
import proofs.«118758_j18124761989796_1_alg».proof.Defs
import proofs.«118758_j18124761989796_1_alg».proof.Proof.Gen.Kernel
import proofs.«118758_j18124761989796_1_alg».proof.Proof.Gen.Kernel.Skeleton
import proofs.«118758_j18124761989796_1_alg».proof.Proof.Gen.Kernel.Launch
import proofs.«118758_j18124761989796_1_alg».proof.Proof.Gen.Kernel.Points
import proofs.«118758_j18124761989796_1_alg».proof.Proof.Gen.Kernel.Frame
import proofs.«118758_j18124761989796_1_alg».proof.Proof.Gen.KernelIdeal
import proofs.«118758_j18124761989796_1_alg».proof.Proof.Gen.KernelIdeal.Skeleton
import proofs.«118758_j18124761989796_1_alg».proof.Proof.Gen.KernelIdeal.Launch
import proofs.«118758_j18124761989796_1_alg».proof.Proof.Gen.KernelIdeal.Points
import proofs.«118758_j18124761989796_1_alg».proof.Proof.Gen.KernelIdeal.Frame
import proofs.«118758_j18124761989796_1_alg».proof.Proof.Gen.ReferenceIdeal
import proofs.«118758_j18124761989796_1_alg».proof.Proof.Gen.ReferenceIdeal.Run
import proofs.«118758_j18124761989796_1_alg».proof.Proof.Gen.ReferenceIdeal.Read
import proofs.«118758_j18124761989796_1_alg».proof.Proof.Gen.Pre_finite_inputs
import proofs.«118758_j18124761989796_1_alg».proof.Proof.KernelRun
import proofs.«118758_j18124761989796_1_alg».proof.Proof.KernelValue
import proofs.«118758_j18124761989796_1_alg».proof.Proof.RefValue
import Idealize.ShloMosaic.Adequacy
import Idealize.ShloMosaic.Init

set_option maxRecDepth 16384

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The whole-array program runs and keeps its arguments: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the second cell's hidden state and the two hidden states stacked, as functions of
    arguments that agree. -/
theorem algebraic : Cert.algebraic_KernelIdeal_ReferenceIdeal := by
  intro m ρ m' ρ' _ hagree
  refine ⟨fun c => Cert.KernelIdeal.KValue.H2 m c,
    fun c => Cert.KernelIdeal.KValue.stack (Cert.KernelIdeal.KValue.H1 m c) (Cert.KernelIdeal.KValue.H2 m c), ?_, ?_⟩
  · exact (θ_run Cert.KernelIdeal.defs _ _).mono
      (fun r h c => ⟨(h c).1.trans (Cert.KernelIdeal.KValue.W7_v22 m ρ c),
        (h c).2.1.trans (Cert.KernelIdeal.KValue.W7_v25 m ρ c), (h c).2.2⟩)
      (Cert.KernelIdeal.RunNamed.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12⟩ := hagree c
      rw [Cert.ReferenceIdeal.Read.val_main_v90_eq, Cert.RefBridge.hidden2_eq, a0, a1, a2, a3, a4, a5, a6, a7, a8, a9, a10, a11, a12]
      rfl
    · obtain ⟨a0, a1, a2, a3, a4, a5, a6, a7, a8, a9, a10, a11, a12⟩ := hagree c
      rw [Cert.ReferenceIdeal.Read.val_main_v93_eq, Cert.RefBridge.stacked_eq, a0, a1, a2, a3, a4, a5, a6, a7, a8, a9, a10, a11, a12]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
